-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x131072x128 : Shape := ⟨3, ![8, 131072, 128]⟩
abbrev S8x131072 : Shape := ⟨2, ![8, 131072]⟩
abbrev S_ : Shape := ⟨0, ![]⟩

class Facts : Prop where
  bcast_S_S8x131072x128 : S_.BroadcastsInDim S8x131072x128 (![] : Fin 0 → Fin S8x131072x128.rank)
  reducesTo_S8x131072x128_S_d0_1_2 : S8x131072x128.ReducesTo [0, 1, 2] S_
  h_S_ : 0 < S_.numel

variable [Facts]

def fn {F : FTy → Type} [FloatOps F] (main_arg0 : FVec F S8x131072x128 .f32) (main_arg1 : IVec S8x131072 32) : IVec S_ 1 :=
  let main_v0 : FVec F S8x131072x128 .f32 := Host.absf main_arg0
  let main_cst : FVec F S_ .f32 := constant S_ .f32 0x7F800000#32
  let main_v1 : FVec F S8x131072x128 .f32 := broadcastInDim S8x131072x128 ![] bcast_S_S8x131072x128 main_cst
  let main_v2 : IVec S8x131072x128 1 := cmpf .olt main_v0 main_v1
  let main_c : IVec S_ 1 := constantI S_ 1 1#1
  let main_v3 : IVec S_ 1 := (fun x v => Host.reduce IntOp.andi x v reducesTo_S8x131072x128_S_d0_1_2 h_S_) main_v2 main_c
  main_v3
-- ==== Kernel.lean ====
abbrev S8x131072x128 : Shape := ⟨3, ![8, 131072, 128]⟩
abbrev S8x131072 : Shape := ⟨2, ![8, 131072]⟩
abbrev S1x1 : Shape := ⟨2, ![1, 1]⟩
abbrev S8x2048x128 : Shape := ⟨3, ![8, 2048, 128]⟩
abbrev S8x2048 : Shape := ⟨2, ![8, 2048]⟩
abbrev S1x2048x128 : Shape := ⟨3, ![1, 2048, 128]⟩
abbrev S2048x128 : Shape := ⟨2, ![2048, 128]⟩
abbrev S7x2048x128 : Shape := ⟨3, ![7, 2048, 128]⟩
abbrev S7x2048 : Shape := ⟨2, ![7, 2048]⟩
abbrev S1x2048 : Shape := ⟨2, ![1, 2048]⟩
abbrev S2048 : Shape := ⟨1, ![2048]⟩
abbrev S1 : Shape := ⟨1, ![1]⟩
abbrev S_ : Shape := ⟨0, ![]⟩

abbrev nBuf : Space → Nat
  | .hbm => 4
  | .vmem => 7
  | .smem => 0
  | _ => 0

abbrev bufTy : (tb : Table) → Fin (tcTables nBuf tb) → BufTy
  | .hbm, ⟨0, _⟩ => ⟨S8x131072x128, .f32⟩
  | .hbm, ⟨1, _⟩ => ⟨S8x131072, .i32⟩
  | .hbm, ⟨2, _⟩ => ⟨S1x1, .f32⟩
  | .hbm, ⟨3, _⟩ => ⟨S_, .f32⟩
  | .local _ .vmem, ⟨0, _⟩ => ⟨S8x2048x128, .f32⟩
  | .local _ .vmem, ⟨1, _⟩ => ⟨S8x2048x128, .f32⟩
  | .local _ .vmem, ⟨2, _⟩ => ⟨S8x2048, .i32⟩
  | .local _ .vmem, ⟨3, _⟩ => ⟨S8x2048, .i32⟩
  | .local _ .vmem, ⟨4, _⟩ => ⟨S1x1, .f32⟩
  | .local _ .vmem, ⟨5, _⟩ => ⟨S1x1, .f32⟩
  | .local _ .vmem, ⟨6, _⟩ => ⟨S1x1, .f32⟩
  | _, _ => ⟨S8x131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v67 : BitVec 1 := Scalar.cmpi .eq arg0 c63_i32
  let v68 : BitVec 32 := Scalar.extui v67
  let c0_i32_28 : BitVec 32 := 0#32
  let v69 : BitVec 1 := Scalar.cmpi .ne v68 c0_i32_28
  v69

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8x2048x128_S8x2048x128_0_0_0 : ∀ a, (![0, 0, 0] : Fin 3 → Nat) a + S8x2048x128.size a ≤ S8x2048x128.size a
  h_S8x2048x128 : 0 < S8x2048x128.numel
  inb_S8x2048_S8x2048_0_0 : ∀ a, (![0, 0] : Fin 2 → Nat) a + S8x2048.size a ≤ S8x2048.size a
  h_S8x2048 : 0 < S8x2048.numel
  slices_S8x2048x128_o0_0_0_S1x2048x128 : S8x2048x128.Slices ![0, 0, 0] S1x2048x128
  shapeCasts_S1x2048x128_S2048x128 : S1x2048x128.ShapeCasts S2048x128
  slices_S8x2048x128_o1_0_0_S7x2048x128 : S8x2048x128.Slices ![1, 0, 0] S7x2048x128
  shapeCasts_S2048x128_S1x2048x128 : S2048x128.ShapeCasts S1x2048x128
  broadcasts_S1x2048x128_S7x2048x128 : S1x2048x128.Broadcasts S7x2048x128
  reduces_S7x2048x128_S7x2048 : S7x2048x128.Reduces [2] S7x2048
  slices_S8x2048_o0_0_S1x2048 : S8x2048.Slices ![0, 0] S1x2048
  shapeCasts_S1x2048_S2048 : S1x2048.ShapeCasts S2048
  slices_S8x2048_o1_0_S7x2048 : S8x2048.Slices ![1, 0] S7x2048
  shapeCasts_S2048_S1x2048 : S2048.ShapeCasts S1x2048
  broadcasts_S1x2048_S7x2048 : S1x2048.Broadcasts S7x2048
  reduces_S7x2048_S2048 : S7x2048.Reduces [0] S2048
  natLt_1_32 : 1 < 32
  reduces_S1x2048_S1 : S1x2048.Reduces [1] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x128.size a ≤ S8x131072x128.size a
  hwx0_0 : ∀ i : grid0.Coords, EltTy.bits .f32 = 32 ∨ (Rect.block (s := S8x131072x128) S8x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S8x131072.size a
  hwx0_1 : ∀ i : grid0.Coords, EltTy.bits .i32 = 32 ∨ (Rect.block (s := S8x131072) S8x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S8x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x131072x128 : Shape := ⟨3, ![8, 131072, 128]⟩
abbrev S8x131072 : Shape := ⟨2, ![8, 131072]⟩
abbrev S1x131072x128 : Shape := ⟨3, ![1, 131072, 128]⟩
abbrev S131072x128 : Shape := ⟨2, ![131072, 128]⟩
abbrev S7x131072x128 : Shape := ⟨3, ![7, 131072, 128]⟩
abbrev S_ : Shape := ⟨0, ![]⟩
abbrev S7x131072 : Shape := ⟨2, ![7, 131072]⟩
abbrev S1x131072 : Shape := ⟨2, ![1, 131072]⟩
abbrev S131072 : Shape := ⟨1, ![131072]⟩

abbrev nBuf : Space → Nat
  | .hbm => 65
  | .vmem => 0
  | .smem => 0
  | _ => 0

abbrev bufTy : (tb : Table) → Fin (tcTables nBuf tb) → BufTy
  | .hbm, ⟨0, _⟩ => ⟨S8x131072x128, .f32⟩
  | .hbm, ⟨1, _⟩ => ⟨S8x131072, .i32⟩
  | .hbm, ⟨2, _⟩ => ⟨S1x131072x128, .f32⟩
  | .hbm, ⟨3, _⟩ => ⟨S131072x128, .f32⟩
  | .hbm, ⟨4, _⟩ => ⟨S1x131072x128, .f32⟩
  | .hbm, ⟨5, _⟩ => ⟨S7x131072x128, .f32⟩
  | .hbm, ⟨6, _⟩ => ⟨S7x131072x128, .f32⟩
  | .hbm, ⟨7, _⟩ => ⟨S7x131072x128, .f32⟩
  | .hbm, ⟨8, _⟩ => ⟨S7x131072x128, .f32⟩
  | .hbm, ⟨9, _⟩ => ⟨S_, .f32⟩
  | .hbm, ⟨10, _⟩ => ⟨S7x131072, .f32⟩
  | .hbm, ⟨11, _⟩ => ⟨S7x131072, .i32⟩
  | .hbm, ⟨12, _⟩ => ⟨S1x131072, .i32⟩
  | .hbm, ⟨13, _⟩ => ⟨S131072, .i32⟩
  | .hbm, ⟨14, _⟩ => ⟨S1x131072, .i32⟩
  | .hbm, ⟨15, _⟩ => ⟨S7x131072, .i32⟩
  | .hbm, ⟨16, _⟩ => ⟨S7x131072, .i1⟩
  | .hbm, ⟨17, _⟩ => ⟨S_, .i1⟩
  | .hbm, ⟨18, _⟩ => ⟨S131072, .i1⟩
  | .hbm, ⟨19, _⟩ => ⟨S_, .f32⟩
  | .hbm, ⟨20, _⟩ => ⟨S_, .f32⟩
  | .hbm, ⟨21, _⟩ => ⟨S7x131072, .f32⟩
  | .hbm, ⟨22, _⟩ => ⟨S7x131072, .f32⟩
  | .hbm, ⟨23, _⟩ => ⟨S_, .f32⟩
  | .hbm, ⟨24, _⟩ => ⟨S131072, .f32⟩
  | .hbm, ⟨25, _⟩ => ⟨S_, .f32⟩
  | .hbm, ⟨26, _⟩ => ⟨S_, .f32⟩
  | .hbm, ⟨27, _⟩ => ⟨S131072, .f32⟩
  | .hbm, ⟨28, _⟩ => ⟨S131072, .f32⟩
  | .hbm, ⟨29, _⟩ => ⟨S_, .f32⟩
  | .hbm, ⟨30, _⟩ => ⟨S_, .f32⟩
  | .hbm, ⟨31, _⟩ => ⟨S7x131072, .f32⟩
  | .hbm, ⟨32, _⟩ => ⟨S7x131072, .f32⟩
  | .hbm, ⟨33, _⟩ => ⟨S_, .f32⟩
  | .hbm, ⟨34, _⟩ => ⟨S131072, .f32⟩
  | .hbm, ⟨35, _⟩ => ⟨S1x131072, .f32⟩
  | .hbm, ⟨36, _⟩ => ⟨S7x131072, .f32⟩
  | .hbm, ⟨37, _⟩ => ⟨S7x131072, .f32⟩
  | .hbm, ⟨38, _⟩ => ⟨S7x131072, .i1⟩
  | .hbm, ⟨39, _⟩ => ⟨S_, .f32⟩
  | .hbm, ⟨40, _⟩ => ⟨S7x131072, .f32⟩
  | .hbm, ⟨41, _⟩ => ⟨S7x131072, .i1⟩
  | .hbm, ⟨42, _⟩ => ⟨S7x131072, .i1⟩
  | .hbm, ⟨43, _⟩ => ⟨S_, .f32⟩
  | .hbm, ⟨44, _⟩ => ⟨S_, .f32⟩
  | .hbm, ⟨45, _⟩ => ⟨S7x131072, .f32⟩
  | .hbm, ⟨46, _⟩ => ⟨S7x131072, .f32⟩
  | .hbm, ⟨47, _⟩ => ⟨S_, .f32⟩
  | .hbm, ⟨48, _⟩ => ⟨S131072, .f32⟩
  | .hbm, ⟨49, _⟩ => ⟨S_, .i1⟩
  | .hbm, ⟨50, _⟩ => ⟨S131072, .i1⟩
  | .hbm, ⟨51, _⟩ => ⟨S131072, .i1⟩
  | .hbm, ⟨52, _⟩ => ⟨S131072, .f32⟩
  | .hbm, ⟨53, _⟩ => ⟨S131072, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S131072, .f32⟩
  | .hbm, ⟨61, _⟩ => ⟨S131072, .f32⟩
  | .hbm, ⟨62, _⟩ => ⟨S_, .f32⟩
  | .hbm, ⟨63, _⟩ => ⟨S_, .f32⟩
  | .hbm, ⟨64, _⟩ => ⟨S_, .f32⟩
  | _, _ => ⟨S8x131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_cst_2 : Ref sig .tc := ⟨.hbm, 25, rfl⟩
abbrev main_call1_v0 : Ref sig .tc := ⟨.hbm, 26, rfl⟩
abbrev main_call1_v1 : Ref sig .tc := ⟨.hbm, 27, rfl⟩
abbrev main_v17 : Ref sig .tc := ⟨.hbm, 28, rfl⟩
abbrev main_cst_3 : Ref sig .tc := ⟨.hbm, 29, rfl⟩
abbrev main_call2_v0 : Ref sig .tc := ⟨.hbm, 30, rfl⟩
abbrev main_call2_v1 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_call3_v0 : Ref sig .tc := ⟨.hbm, 44, rfl⟩
abbrev main_call3_v1 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_c_8 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_9 : Ref sig .tc := ⟨.hbm, 54, rfl⟩
abbrev main_v33 : Ref sig .tc := ⟨.hbm, 55, rfl⟩
abbrev main_cst_10 : Ref sig .tc := ⟨.hbm, 56, rfl⟩
abbrev main_v34 : Ref sig .tc := ⟨.hbm, 57, rfl⟩
abbrev main_cst_11 : Ref sig .tc := ⟨.hbm, 58, rfl⟩
abbrev main_call4_v0 : Ref sig .tc := ⟨.hbm, 59, rfl⟩
abbrev main_call4_v1 : Ref sig .tc := ⟨.hbm, 60, rfl⟩
abbrev main_v35 : Ref sig .tc := ⟨.hbm, 61, rfl⟩
abbrev main_cst_12 : Ref sig .tc := ⟨.hbm, 62, rfl⟩
abbrev main_v36 : Ref sig .tc := ⟨.hbm, 63, rfl⟩
abbrev main_v37 : Ref sig .tc := ⟨.hbm, 64, rfl⟩

abbrev nD : Nat := 1
abbrev τ : Topo := Topo.v7x

variable {F : FTy → Type} [FloatOps F]

class Facts₀ : Prop where
  slices_S8x131072x128_S1x131072x128_0_0_0 : S8x131072x128.Slices ![0, 0, 0] S1x131072x128
  shapeCasts_S1x131072x128_S131072x128 : S1x131072x128.ShapeCasts S131072x128
  bcast_S131072x128_S1x131072x128_1_2 : S131072x128.BroadcastsInDim S1x131072x128 (![1, 2] : Fin 2 → Fin S1x131072x128.rank)
  slices_S8x131072x128_S7x131072x128_1_0_0 : S8x131072x128.Slices ![1, 0, 0] S7x131072x128
  bcast_S1x131072x128_S7x131072x128_0_1_2 : S1x131072x128.BroadcastsInDim S7x131072x128 (![0, 1, 2] : Fin 3 → Fin S7x131072x128.rank)
  reducesTo_S7x131072x128_S7x131072_d2 : S7x131072x128.ReducesTo [2] S7x131072
  h_S_ : 0 < S_.numel
  slices_S8x131072_S7x131072_1_0 : S8x131072.Slices ![1, 0] S7x131072
  slices_S8x131072_S1x131072_0_0 : S8x131072.Slices ![0, 0] S1x131072
  shapeCasts_S1x131072_S131072 : S1x131072.ShapeCasts S131072
  bcast_S131072_S1x131072_1 : S131072.BroadcastsInDim S1x131072 (![1] : Fin 1 → Fin S1x131072.rank)
  bcast_S1x131072_S7x131072_0_1 : S1x131072.BroadcastsInDim S7x131072 (![0, 1] : Fin 2 → Fin S7x131072.rank)
  reducesTo_S7x131072_S131072_d0 : S7x131072.ReducesTo [0] S131072
  bcast_S_S7x131072 : S_.BroadcastsInDim S7x131072 (![] : Fin 0 → Fin S7x131072.rank)
  bcast_S_S131072 : S_.BroadcastsInDim S131072 (![] : Fin 0 → Fin S131072.rank)
  reducesTo_S131072_S_d0 : S131072.ReducesTo [0] S_

variable [Facts₀]

class Facts : Prop extends Facts₀ where

variable [Facts]
-- ==== Proof.KernelPieces.lean ====
/-
  What one grid point of the kernel leaves behind, as values.

  The kernel keeps two [1,1] scalars between grid points: the running sum of the counted samples' losses and the running
  number of counted samples. At a point it loads its tile (a block of embeddings and a block of class words), computes the
  tile's two partial sums and adds them to the scalars; at the first point it zeroes the scalars first; at the last point it
  also writes (running sum) / max(running count, 1) into the one-element output block. The three control cases are:
  A — first point (reset, then add); B — a middle point (add); C — the last point (add, then write the quotient).

  Here each case's resulting scalars, and case C's output block, are read back as the pure payload terms of the body:
  `addSum x0 x1 acc` is the new running sum from the old one `acc` and the tile's blocks, `addCount` the new running count,
  `quotient` the output block. Everything is generic in the float instance.
-/
import proofs.«151627_j22462678958338_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.KValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The running sum after a tile: the old one plus the tile's sum of counted losses. -/
abbrev addSum (x0 : Vec F S8x2048x128 .f32) (x1 : Vec F S8x2048 .i32) (acc : Vec F S1x1 .f32) : Vec F S1x1 .f32 :=
  k0_pay2 (k0_pay10 x0 x1) (k0_pay11 x0 x1) (k0_pay13 x0 x1) (k0_pay14 x0 x1) acc
/-- The running count after a tile: the old one plus the tile's number of counted samples. -/
abbrev addCount (x0 : Vec F S8x2048x128 .f32) (x1 : Vec F S8x2048 .i32) (acc : Vec F S1x1 .f32) : Vec F S1x1 .f32 :=
  k0_pay3 (k0_pay10 x0 x1) (k0_pay13 x0 x1) acc
/-- The block the last point writes: the sum over the count raised to at least one. -/
abbrev quotient (s n : Vec F S1x1 .f32) : Vec F S1x1 .f32 := k0_pay4 s n
/-- The zero the first point resets both scalars to. -/
abbrev zeroS : Vec F S1x1 .f32 := k0_pay5 (F := F)
abbrev zeroC : Vec F S1x1 .f32 := k0_pay6 (F := F)

/-! ## A middle point: both scalars advance from what the point before left -/

theorem sum_B (c : Dev nD) (i : grid0.Coords) (arg1 : Memref sig .tc .vmem S8x2048x128 .f32) (harg1 : arg1.IsWhole) (arg2 : Memref sig .tc .vmem S8x2048 .i32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S8x2048x128 .f32) (x1 : Vec F S8x2048 .i32) (xs0 : Vec F S1x1 .f32) (xs1 : Vec F S1x1 .f32) :
    sout0_B_0 c i arg1 harg1 arg2 harg2 arg3 harg3 arg4 harg4 arg5 harg5 hc0 hc1 x0 x1 xs0 xs1 = addSum x0 x1 xs0 := by
  unfold sout0_B_0
  rw [View.read_writes_eq_canon _ _ _ (scover0_B_0 c i arg1 harg1 arg2 harg2 arg3 harg3 arg4 harg4 arg5 harg5 hc0 hc1 x0 x1 xs0 xs1)]
  unfold kernelRun0_B
  dsimp only
  sl_unfold_words
  rw [View.canon_unit_zero hz2]
  simp only [View.readCov_unit_zero (S := S1x1) _ hz2, View.readAt_eq_ld, harg1.read_unread, harg2.read_unread, harg4.read_unread, harg5.read_unread, View.ld_unit_zero (S := S8x2048x128) hz3, View.ld_unit_zero (S := S8x2048) hz2, View.ld_unit_zero (S := S1x1) hz2]

theorem count_B (c : Dev nD) (i : grid0.Coords) (arg1 : Memref sig .tc .vmem S8x2048x128 .f32) (harg1 : arg1.IsWhole) (arg2 : Memref sig .tc .vmem S8x2048 .i32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S8x2048x128 .f32) (x1 : Vec F S8x2048 .i32) (xs0 : Vec F S1x1 .f32) (xs1 : Vec F S1x1 .f32) :
    sout0_B_1 c i arg1 harg1 arg2 harg2 arg3 harg3 arg4 harg4 arg5 harg5 hc0 hc1 x0 x1 xs0 xs1 = addCount x0 x1 xs1 := by
  unfold sout0_B_1
  rw [View.read_writes_eq_canon _ _ _ (scover0_B_1 c i arg1 harg1 arg2 harg2 arg3 harg3 arg4 harg4 arg5 harg5 hc0 hc1 x0 x1 xs0 xs1)]
  unfold kernelRun0_B
  dsimp only
  sl_unfold_words
  rw [View.canon_unit_zero hz2]
  simp only [View.readCov_unit_zero (S := S1x1) _ hz2, View.readAt_eq_ld, harg1.read_unread, harg2.read_unread, harg4.read_unread, harg5.read_unread, View.ld_unit_zero (S := S8x2048x128) hz3, View.ld_unit_zero (S := S8x2048) hz2, View.ld_unit_zero (S := S1x1) hz2]

/-! ## The first point: both scalars are reset to zero, read back, and advanced -/

theorem sum_A (c : Dev nD) (i : grid0.Coords) (arg1 : Memref sig .tc .vmem S8x2048x128 .f32) (harg1 : arg1.IsWhole) (arg2 : Memref sig .tc .vmem S8x2048 .i32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S8x2048x128 .f32) (x1 : Vec F S8x2048 .i32) :
    sout0_A_0 c i arg1 harg1 arg2 harg2 arg3 harg3 arg4 harg4 arg5 harg5 hc0 hc1 x0 x1 = addSum x0 x1 zeroS := by
  unfold sout0_A_0
  rw [View.read_writes_eq_canon _ _ _ (scover0_A_0 c i arg1 harg1 arg2 harg2 arg3 harg3 arg4 harg4 arg5 harg5 hc0 hc1 x0 x1)]
  unfold kernelRun0_A
  dsimp only
  sl_unfold_words
  rw [View.canon_cons_unit_zero (S := S1x1) hz2]
  simp only [View.readCov_unit_zero (S := S1x1) _ hz2, View.readAt_eq_ld, harg1.read_unread, harg2.read_unread, harg4.read_unread, harg5.read_unread, View.ld_unit_zero (S := S8x2048x128) hz3, View.ld_unit_zero (S := S8x2048) hz2, View.ld_unit_zero (S := S1x1) hz2]

theorem count_A (c : Dev nD) (i : grid0.Coords) (arg1 : Memref sig .tc .vmem S8x2048x128 .f32) (harg1 : arg1.IsWhole) (arg2 : Memref sig .tc .vmem S8x2048 .i32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S8x2048x128 .f32) (x1 : Vec F S8x2048 .i32) :
    sout0_A_1 c i arg1 harg1 arg2 harg2 arg3 harg3 arg4 harg4 arg5 harg5 hc0 hc1 x0 x1 = addCount x0 x1 zeroC := by
  unfold sout0_A_1
  rw [View.read_writes_eq_canon _ _ _ (scover0_A_1 c i arg1 harg1 arg2 harg2 arg3 harg3 arg4 harg4 arg5 harg5 hc0 hc1 x0 x1)]
  unfold kernelRun0_A
  dsimp only
  sl_unfold_words
  rw [View.canon_cons_unit_zero (S := S1x1) hz2]
  simp only [View.readCov_unit_zero (S := S1x1) _ hz2, View.readAt_eq_ld, harg1.read_unread, harg2.read_unread, harg4.read_unread, harg5.read_unread, View.ld_unit_zero (S := S8x2048x128) hz3, View.ld_unit_zero (S := S8x2048) hz2, View.ld_unit_zero (S := S1x1) hz2]

/-! ## The last point: both scalars advance, and the output block is their quotient -/

theorem sum_C (c : Dev nD) (i : grid0.Coords) (arg1 : Memref sig .tc .vmem S8x2048x128 .f32) (harg1 : arg1.IsWhole) (arg2 : Memref sig .tc .vmem S8x2048 .i32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S8x2048x128 .f32) (x1 : Vec F S8x2048 .i32) (xs0 : Vec F S1x1 .f32) (xs1 : Vec F S1x1 .f32) :
    sout0_C_0 c i arg1 harg1 arg2 harg2 arg3 harg3 arg4 harg4 arg5 harg5 hc0 hc1 x0 x1 xs0 xs1 = addSum x0 x1 xs0 := by
  unfold sout0_C_0
  rw [View.read_writes_eq_canon _ _ _ (scover0_C_0 c i arg1 harg1 arg2 harg2 arg3 harg3 arg4 harg4 arg5 harg5 hc0 hc1 x0 x1 xs0 xs1)]
  unfold kernelRun0_C
  dsimp only
  sl_unfold_words
  rw [View.canon_unit_zero hz2]
  simp only [View.readCov_unit_zero (S := S1x1) _ hz2, View.readAt_eq_ld, harg1.read_unread, harg2.read_unread, harg4.read_unread, harg5.read_unread, View.ld_unit_zero (S := S8x2048x128) hz3, View.ld_unit_zero (S := S8x2048) hz2, View.ld_unit_zero (S := S1x1) hz2]

theorem count_C (c : Dev nD) (i : grid0.Coords) (arg1 : Memref sig .tc .vmem S8x2048x128 .f32) (harg1 : arg1.IsWhole) (arg2 : Memref sig .tc .vmem S8x2048 .i32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S8x2048x128 .f32) (x1 : Vec F S8x2048 .i32) (xs0 : Vec F S1x1 .f32) (xs1 : Vec F S1x1 .f32) :
    sout0_C_1 c i arg1 harg1 arg2 harg2 arg3 harg3 arg4 harg4 arg5 harg5 hc0 hc1 x0 x1 xs0 xs1 = addCount x0 x1 xs1 := by
  unfold sout0_C_1
  rw [View.read_writes_eq_canon _ _ _ (scover0_C_1 c i arg1 harg1 arg2 harg2 arg3 harg3 arg4 harg4 arg5 harg5 hc0 hc1 x0 x1 xs0 xs1)]
  unfold kernelRun0_C
  dsimp only
  sl_unfold_words
  rw [View.canon_unit_zero hz2]
  simp only [View.readCov_unit_zero (S := S1x1) _ hz2, View.readAt_eq_ld, harg1.read_unread, harg2.read_unread, harg4.read_unread, harg5.read_unread, View.ld_unit_zero (S := S8x2048x128) hz3, View.ld_unit_zero (S := S8x2048) hz2, View.ld_unit_zero (S := S1x1) hz2]

theorem out_C (c : Dev nD) (i : grid0.Coords) (arg1 : Memref sig .tc .vmem S8x2048x128 .f32) (harg1 : arg1.IsWhole) (arg2 : Memref sig .tc .vmem S8x2048 .i32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S8x2048x128 .f32) (x1 : Vec F S8x2048 .i32) (xs0 : Vec F S1x1 .f32) (xs1 : Vec F S1x1 .f32) :
    out0_C_2 c i arg1 harg1 arg2 harg2 arg3 harg3 arg4 harg4 arg5 harg5 hc0 hc1 x0 x1 xs0 xs1 = quotient (addSum x0 x1 xs0) (addCount x0 x1 xs1) := by
  unfold out0_C_2
  rw [View.read_writes_eq_canon _ _ _ (cover0_C_2 c i arg1 harg1 arg2 harg2 arg3 harg3 arg4 harg4 arg5 harg5 hc0 hc1 x0 x1 xs0 xs1)]
  unfold kernelRun0_C
  dsimp only
  sl_unfold_words
  rw [View.canon_unit_zero hz2]
  simp only [View.readCov_unit_zero (S := S1x1) _ hz2, View.readAt_eq_ld, harg1.read_unread, harg2.read_unread, harg4.read_unread, harg5.read_unread, View.ld_unit_zero (S := S8x2048x128) hz3, View.ld_unit_zero (S := S8x2048) hz2, View.ld_unit_zero (S := S1x1) hz2]

end Cert.KernelIdeal.KValue

end
-- ==== Proof.KernelAccum.lean ====
/-
  The two running scalars after each grid point, by induction on the point.

  After the first point the running sum is the first tile's sum added to zero; after every later point it is the tile's
  sum added to what the point before left; likewise the running count. The generated frame states what the scratch buffers
  hold after point `n` by recursion on `n` over the three control cases; here that recursion is identified with the plain
  left-to-right accumulation `runSum` / `runCount`, and the last point's output block with their quotient.
-/
import proofs.«151627_j22462678958338_1_alg».proof.Proof.KernelPieces

noncomputable section

open Idealize.ShloMosaic Idealize.ShloMosaic.TcCoe Idealize.SL.Sem

namespace Cert.KernelIdeal.KValue

open Cert.KernelIdeal Cert.KernelIdeal.Gen

variable {F : FTy → Type} [FloatOps F]
variable (m : (ℓ : Loc nD τ sig) → Buf (Elt F) ℓ)

/-- Tile `t`'s block of embeddings and of class words, as the region finds them. -/
abbrev embBlk (c : Dev nD) (t : Fin cfg0.N) : Vec F S8x2048x128 .f32 := iblk m c 0 t
abbrev clsBlk (c : Dev nD) (t : Fin cfg0.N) : Vec F S8x2048 .i32 := iblk m c 1 t

/-- The running sum after point `n`: zero plus the tiles' sums, first tile first. -/
def runSum (c : Dev nD) : (n : ℕ) → n < cfg0.N → Vec F S1x1 .f32
  | 0, h => addSum (embBlk m c ⟨0, h⟩) (clsBlk m c ⟨0, h⟩) zeroS
  | n + 1, h => addSum (embBlk m c ⟨n + 1, h⟩) (clsBlk m c ⟨n + 1, h⟩) (runSum c n (Nat.lt_of_succ_lt h))

/-- The running count after point `n`. -/
def runCount (c : Dev nD) : (n : ℕ) → n < cfg0.N → Vec F S1x1 .f32
  | 0, h => addCount (embBlk m c ⟨0, h⟩) (clsBlk m c ⟨0, h⟩) zeroC
  | n + 1, h => addCount (embBlk m c ⟨n + 1, h⟩) (clsBlk m c ⟨n + 1, h⟩) (runCount c n (Nat.lt_of_succ_lt h))

/-- What the two scratch scalars hold after point `n` is the accumulation so far. -/
theorem scratch_eq (c : Dev nD) : ∀ (n : ℕ) (h : n < cfg0.N),
    (outsAt0 m c n h).2.1 = runSum m c n h ∧ (outsAt0 m c n h).2.2 = runCount m c n h
  | 0, h => by
    rw [outsAt0_A m c ⟨0, h⟩ rfl (by show ¬(0 : ℕ) % 64 = 63; decide)]
    dsimp only
    exact ⟨sum_A _ _ _ _ _ _ _ _ _ _ _ _ _ _ _ _, count_A _ _ _ _ _ _ _ _ _ _ _ _ _ _ _ _⟩
  | n + 1, h => by
    have ih := scratch_eq c n (Nat.lt_of_succ_lt h)
    have hN : cfg0.N = 64 := N_0
    have h0 : ¬(⟨n + 1, h⟩ : Fin cfg0.N).val % 64 = 0 := by dsimp only; omega
    by_cases h1 : (⟨n + 1, h⟩ : Fin cfg0.N).val % 64 = 63
    · rw [outsAt0_C m c ⟨n + 1, h⟩ h0 h1]
      dsimp only
      refine ⟨(sum_C _ _ _ _ _ _ _ _ _ _ _ _ _ _ _ _ _ _).trans ?_, (count_C _ _ _ _ _ _ _ _ _ _ _ _ _ _ _ _ _ _).trans ?_⟩
      · show addSum _ _ (outsAt0 m c n _).2.1 = addSum _ _ (runSum m c n _)
        rw [ih.1]
      · show addCount _ _ (outsAt0 m c n _).2.2 = addCount _ _ (runCount m c n _)
        rw [ih.2]
    · rw [outsAt0_B m c ⟨n + 1, h⟩ h0 h1]
      dsimp only
      refine ⟨(sum_B _ _ _ _ _ _ _ _ _ _ _ _ _ _ _ _ _ _).trans ?_, (count_B _ _ _ _ _ _ _ _ _ _ _ _ _ _ _ _ _ _).trans ?_⟩
      · show addSum _ _ (outsAt0 m c n _).2.1 = addSum _ _ (runSum m c n _)
        rw [ih.1]
      · show addCount _ _ (outsAt0 m c n _).2.2 = addCount _ _ (runCount m c n _)
        rw [ih.2]

/-- The last point, as a point of the grid. -/
abbrev lastPt : Fin cfg0.N := ⟨63, by rw [show cfg0.N = 64 from N_0]; decide⟩

/-- The block the last point leaves in the output's staging buffer: the final sum over the final count raised to one. -/
theorem out_last (c : Dev nD) :
    (outsAt0 m c lastPt.val lastPt.isLt).1
      = quotient (runSum m c 63 lastPt.isLt) (runCount m c 63 lastPt.isLt) := by
  have h0 : ¬(lastPt : Fin cfg0.N).val % 64 = 0 := by show ¬(63 : ℕ) % 64 = 0; decide
  have h1 : (lastPt : Fin cfg0.N).val % 64 = 63 := by show (63 : ℕ) % 64 = 63; decide
  rw [outsAt0_C m c lastPt h0 h1]
  dsimp only
  refine (out_C _ _ _ _ _ _ _ _ _ _ _ _ _ _ _ _ _ _).trans ?_
  have ih := scratch_eq m c 62 (Nat.lt_of_succ_lt lastPt.isLt)
  show quotient (addSum _ _ (outsAt0 m c 62 _).2.1) (addCount _ _ (outsAt0 m c 62 _).2.2) = _
  rw [ih.1, ih.2]
  rfl

end Cert.KernelIdeal.KValue

end
-- ==== Proof.KernelResult.lean ====
/-
  The kernel's result: what the program's result buffer holds after every run.

  The output window's one block is written back once, after the last grid point, and that block is the whole [1,1] output
  array; so the array ends holding the quotient of the two accumulated scalars, and the program's scalar result, a reshape
  of that array, holds the same number.
-/
import proofs.«151627_j22462678958338_1_alg».proof.Proof.KernelAccum
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ) (ρ : Dev nD → PrngReg)

/-- The final sum and the final count: the accumulation after the last tile. -/
abbrev finalSum (c : Dev nD) : Vec F S1x1 .f32 := runSum m c 63 lastPt.isLt
abbrev finalCount (c : Dev nD) : Vec F S1x1 .f32 := runCount m c 63 lastPt.isLt

/-- The [1,1] output array's contents after the run. -/
abbrev outArr (c : Dev nD) : Buf (Elt F) ((c : Thread nD τ).loc main_v0) := quotient (finalSum m c) (finalCount m c)

/-- The one write-back, after the last point, writes the quotient: the block at index (0, 0) of a [1,1] array is the array. -/
theorem flushed_eq (c : Dev nD) (t : Fin cfg0.N) (hf : (cfg0.win 2).flush t = true) :
    (dats m 0 c).flushed 2 t = ((cfg0.win 2).blk t).view.read (Elt F) (outArr m c) := by
  have hN : cfg0.N = 64 := N_0
  have h63 : t.val = 63 := by have := (flush0_2 t).mp hf; have := t.isLt; omega
  obtain rfl : t = lastPt := Fin.ext h63
  show (cfg0.win 2).cut (grid0.coords lastPt) ((dats m 0 c).after 2 lastPt) = _
  rw [after0_2, out_last]
  have hz' : (fun a => win0_2.index lastPt a * main_v0.ty.shape.size a) = fun _ => 0 := funext fun a => by fin_cases a <;> decide
  exact (Memref.read_access_unit_zero (Elt F) main_v0 hz' (fun a => by rw [congrFun hz' a]; simp) (outArr m c)).symm

/-- So the output array ends holding the quotient: the last point's block covers its one element. -/
theorem outArr_final (c : Dev nD) : (dats m 0 c).arrAt 2 cfg0.N = outArr m c :=
  (dats m 0 c).arrAt_eq_of_cover 2 (outArr m c) (flushed_eq m c) fun i =>
    ⟨lastPt, (flush0_2 lastPt).mpr rfl, by
      show i ∈ ((View.whole main_v0).slice (win0_2.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_2.index lastPt 0 * win0_2.size 0 ≤ (i 0 : Nat) ∧ (i 0 : Nat) < win0_2.index lastPt 0 * win0_2.size 0 + win0_2.xsize (grid0.coords lastPt) 0
                  rw [show win0_2.index lastPt 0 * win0_2.size 0 = 0 from by decide +kernel, show win0_2.xsize (grid0.coords lastPt) 0 = 1 from by decide +kernel]; omega
      | ⟨1, _⟩ => show win0_2.index lastPt 1 * win0_2.size 1 ≤ (i 1 : Nat) ∧ (i 1 : Nat) < win0_2.index lastPt 1 * win0_2.size 1 + win0_2.xsize (grid0.coords lastPt) 1
                  rw [show win0_2.index lastPt 1 * win0_2.size 1 = 0 from by decide +kernel, show win0_2.xsize (grid0.coords lastPt) 1 = 1 from by decide +kernel]; omega⟩

/-- The program's scalar result: the output array reshaped to rank 0. -/
abbrev result (c : Dev nD) : Buf (Elt F) ((c : Thread nD τ).loc main_v1) :=
  shapeCast S_ (outArr m c) shapeCasts_S1x1_S_

/-- The reshape after the region reads the output array the region left. -/
theorem tail_eq (c : Dev nD) :
    Pipeline.afterTail₀ cfgs (dats m) 0 (V0 m) [hostOps1] c main_v1 = result m c := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = outArr m c :=
    (Pipeline.withArrays_arr spec0 launch0.win.arr_inj c _ _ 2).trans (outArr_final m c)
  rw [e]
  rfl

/-- The run, read: the result at the reshaped quotient, both arguments unchanged. -/
theorem run : θ_run defs (onTc (τ := τ) (main (F := F))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.SampleLoss.lean ====
/-
  The loss of one sample, and of the whole batch, as functions of plain arrays over the extended reals.

  A sample has an anchor stream (stream 0) and seven other streams. From the seven squared distances `d k` of the other
  streams to the anchor and the seven bits `s k` saying that stream `k + 1` has the anchor's class, the sample's loss is
    (sum of d k over the same-class k)  -  (sum of (d k - α) over the other-class k with d k < α),
  where α is the largest same-class distance, or 1 when no stream has the anchor's class; the sample is counted when it
  has a same-class stream or a negative other-class margin. The batch's result is the sum of the counted samples' losses
  divided by the number of counted samples, or by 1 when none is counted.

  Two programs compute this. One takes the batch tile by tile, asks whether a same-class stream exists by comparing the
  masked maximum with -∞, counts the negative margins by summing zero-one floats, and adds each tile's two partial sums
  to two running scalars. The other takes the whole batch at once, asks the same questions by or-ing the bits, and subtracts
  the anchor from the other stream in the opposite order. Both forms are defined here (suffix K for the tiled one, R for the
  whole-batch one); the module that follows this one proves them equal on finite inputs.
-/
import Idealize.ShloMosaic.PureOps.Ideal
import Idealize.ShloMosaic.PureOps.Ideal.Laws
import Idealize.ShloMosaic.Lib.ValueIdx

noncomputable section

open scoped BigOperators

namespace SafeLoss

open Idealize.ShloMosaic Idealize.ShloMosaic.ValueIdx

/-- The three float literals both programs use: -∞, 1 and 0, as the f32 words the programs print. -/
abbrev NI : EReal := Ideal.ofBits .f32 0xFF800000#32
abbrev F1 : EReal := Ideal.ofBits .f32 0x3F800000#32
abbrev F0 : EReal := Ideal.ofBits .f32 0x00000000#32

/-- Stream `k + 1` of the eight, for `k` among the seven non-anchor streams. -/
abbrev up (k : Fin 7) : Fin 8 := ⟨1 + k.val, by omega⟩
/-- The anchor stream. -/
abbrev anchor : Fin 8 := ⟨0, by decide⟩

/-! ## One sample: what both forms share -/

/-- The largest same-class distance (-∞ when there is none): the maximum over the seven streams of the distance where the
    class bit is set and -∞ elsewhere. -/
def maskedMax (d : Fin 7 → EReal) (s : Fin 7 → BitVec 1) : EReal :=
  (Finset.univ : Finset (Fin 7)).fold max NI (fun k => Scalar.select (s k) (d k) NI)

/-- The sum of the same-class distances. -/
def sameSum (d : Fin 7 → EReal) (s : Fin 7 → BitVec 1) : EReal :=
  ∑ k : Fin 7, Scalar.select (s k) (d k) F0

/-! ## One sample, tiled form -/

/-- "Some stream has the anchor's class", read off the masked maximum: it is above -∞. -/
def anySameK (d : Fin 7 → EReal) (s : Fin 7 → BitVec 1) : BitVec 1 := Ideal.cmp .ogt (maskedMax d s) NI
/-- Stream `k`'s margin: its distance less α. -/
def marginK (d : Fin 7 → EReal) (s : Fin 7 → BitVec 1) (k : Fin 7) : EReal :=
  d k - Scalar.select (anySameK d s) (maskedMax d s) F1
/-- Stream `k` is of another class and its margin is negative. -/
def negK (d : Fin 7 → EReal) (s : Fin 7 → BitVec 1) (k : Fin 7) : BitVec 1 :=
  IntOp.andi (IntOp.xori (s k) 1#1) (Ideal.cmp .olt (marginK d s k) F0)
/-- The sum of the negative other-class margins. -/
def negSumK (d : Fin 7 → EReal) (s : Fin 7 → BitVec 1) : EReal :=
  ∑ k : Fin 7, Scalar.select (negK d s k) (marginK d s k) F0
/-- How many there are, as a sum of zero-one floats. -/
def negCountK (d : Fin 7 → EReal) (s : Fin 7 → BitVec 1) : EReal :=
  ∑ k : Fin 7, ((((negK d s k).setWidth 32).toInt : ℝ) : EReal)
/-- The sample is counted. -/
def includeK (d : Fin 7 → EReal) (s : Fin 7 → BitVec 1) : BitVec 1 :=
  IntOp.ori (anySameK d s) (Ideal.cmp .ogt (negCountK d s) F0)
/-- The sample's contribution to the numerator. -/
def termK (d : Fin 7 → EReal) (s : Fin 7 → BitVec 1) : EReal :=
  Scalar.select (includeK d s) (sameSum d s - negSumK d s) F0
/-- The sample's contribution to the denominator. -/
def countK (d : Fin 7 → EReal) (s : Fin 7 → BitVec 1) : EReal :=
  ((((includeK d s).setWidth 32).toInt : ℝ) : EReal)

/-! ## One sample, whole-batch form -/

/-- "Some stream has the anchor's class", as the or of the seven bits. -/
def anySameR (s : Fin 7 → BitVec 1) : BitVec 1 := (Finset.univ : Finset (Fin 7)).fold IntOp.ori 0#1 s
def marginR (d : Fin 7 → EReal) (s : Fin 7 → BitVec 1) (k : Fin 7) : EReal :=
  d k - Scalar.select (anySameR s) (maskedMax d s) F1
def negR (d : Fin 7 → EReal) (s : Fin 7 → BitVec 1) (k : Fin 7) : BitVec 1 :=
  IntOp.andi (~~~(s k)) (Ideal.cmp .olt (marginR d s k) F0)
def negSumR (d : Fin 7 → EReal) (s : Fin 7 → BitVec 1) : EReal :=
  F0 + ∑ k : Fin 7, Scalar.select (negR d s k) (marginR d s k) F0
def includeR (d : Fin 7 → EReal) (s : Fin 7 → BitVec 1) : BitVec 1 :=
  IntOp.ori (anySameR s) ((Finset.univ : Finset (Fin 7)).fold IntOp.ori 0#1 (negR d s))
def termR (d : Fin 7 → EReal) (s : Fin 7 → BitVec 1) : EReal :=
  Scalar.select (includeR d s) ((F0 + sameSum d s) - negSumR d s) F0
def countR (d : Fin 7 → EReal) (s : Fin 7 → BitVec 1) : EReal :=
  (((includeR d s).toNat : ℝ) : EReal)

/-! ## The inputs of a sample, read off the arrays (any number `n` of samples) -/

/-- Sample `r`'s seven squared distances, the anchor subtracted FROM the other stream, summed over the 128 features. -/
def distK {n : Nat} (x : (⟨3, ![8, n, 128]⟩ : Shape).Idx → EReal) (r : Fin n) (k : Fin 7) : EReal :=
  ∑ j : Fin 128, (x (ix3 (up k) r j) - x (ix3 anchor r j)) * (x (ix3 (up k) r j) - x (ix3 anchor r j))
/-- The same with the other stream subtracted from the anchor, and the sum started at the literal 0. -/
def distR {n : Nat} (x : (⟨3, ![8, n, 128]⟩ : Shape).Idx → EReal) (r : Fin n) (k : Fin 7) : EReal :=
  F0 + ∑ j : Fin 128, (x (ix3 anchor r j) - x (ix3 (up k) r j)) * (x (ix3 anchor r j) - x (ix3 (up k) r j))
/-- Sample `r`'s seven class bits: stream `k + 1`'s class word equals the anchor's. -/
def sameBits {n : Nat} (t : (⟨2, ![8, n]⟩ : Shape).Idx → BitVec 32) (r : Fin n) (k : Fin 7) : BitVec 1 :=
  IntOp.cmpi .eq (t (ix2 (up k) r)) (t (ix2 anchor r))

/-! ## The batch -/

/-- Sample `r` of tile `t`, in the batch of 64 tiles of 2048 samples. -/
abbrev glob (t : Fin 64) (r : Fin 2048) : Fin 131072 := ⟨t.val * 2048 + r.val, by omega⟩

/-- One tile's partial numerator and denominator, from the tile's own blocks. -/
def tileSum (x : (⟨3, ![8, 2048, 128]⟩ : Shape).Idx → EReal) (t : (⟨2, ![8, 2048]⟩ : Shape).Idx → BitVec 32) : EReal :=
  ∑ r : Fin 2048, termK (distK x r) (sameBits t r)
def tileCount (x : (⟨3, ![8, 2048, 128]⟩ : Shape).Idx → EReal) (t : (⟨2, ![8, 2048]⟩ : Shape).Idx → BitVec 32) : EReal :=
  ∑ r : Fin 2048, countK (distK x r) (sameBits t r)

/-- The last step of both forms: the numerator over the denominator raised to at least 1. -/
def ratio (num cnt : EReal) : EReal := Ideal.div num (max cnt F1)

/-- The whole-batch form of the result. -/
def totalR (E : (⟨3, ![8, 131072, 128]⟩ : Shape).Idx → EReal) (T : (⟨2, ![8, 131072]⟩ : Shape).Idx → BitVec 32) : EReal :=
  ratio (F0 + ∑ b : Fin 131072, termR (distR E b) (sameBits T b))
        (F0 + ∑ b : Fin 131072, countR (distR E b) (sameBits T b))

/-- The tiled form of the result, over the whole arrays: tile `t` holds samples `2048 t … 2048 t + 2047`. -/
def totalK (E : (⟨3, ![8, 131072, 128]⟩ : Shape).Idx → EReal) (T : (⟨2, ![8, 131072]⟩ : Shape).Idx → BitVec 32) : EReal :=
  ratio (F0 + ∑ t : Fin 64, ∑ r : Fin 2048, termK (distK E (glob t r)) (sameBits T (glob t r)))
        (F0 + ∑ t : Fin 64, ∑ r : Fin 2048, countK (distK E (glob t r)) (sameBits T (glob t r)))

end SafeLoss

end
-- ==== Proof.TileSums.lean ====
/-
  What one tile contributes, at the extended reals.

  A tile is a block of embeddings (8 streams × 2048 samples × 128 features) and a block of class words (8 × 2048). The
  kernel body's arithmetic on a tile is read here entry by entry: sample `r`'s seven squared distances are sums over the
  128 features of (other stream − anchor)², its class bits compare the other streams' class words with the anchor's, the
  masked maximum, the same-class sum, the margins, the negative-margin mask and its two sums follow sample by sample, and
  the two stores add to the running scalars the sum over the tile's 2048 samples of the counted losses, and of the zero-one
  include flags. The last store divides the running sum by the running count raised to at least one.
-/
import proofs.«151627_j22462678958338_1_alg».proof.Proof.Gen.KernelIdeal.Skeleton
import proofs.«151627_j22462678958338_1_alg».proof.Proof.SampleLoss
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx SafeLoss

/-! ## The inserted index of each one-axis reduction, by coordinates -/

private theorem lift3 (k : Fin 7) (r : Fin 2048) (j : Fin 128) :
    reduces_S7x2048x128_S7x2048.lift (ix2 k r) j = ix3 k r j := by
  funext a
  refine Fin.ext ?_
  match a with
  | ⟨0, _⟩ => rfl
  | ⟨1, _⟩ => rfl
  | ⟨2, _⟩ => rfl

private theorem lift7 (r : Fin 2048) (k : Fin 7) :
    reduces_S7x2048_S2048.lift (ix1 r) k = ix2 k r := by
  funext a
  refine Fin.ext ?_
  match a with
  | ⟨0, _⟩ => rfl
  | ⟨1, _⟩ => rfl

private theorem liftRow (r : Fin 2048) :
    reduces_S1x2048_S1.lift (ix1 (0 : Fin 1)) r = ix2 (0 : Fin 1) r := by
  funext a
  refine Fin.ext ?_
  match a with
  | ⟨0, _⟩ => rfl
  | ⟨1, _⟩ => rfl

/-! ## Each payload read at an index -/

/-- The squared distances: entry `(k, r)` is sample `r`'s distance from stream `k + 1` to the anchor. -/
private theorem pay7_apply (x0 : Vec Ideal S8x2048x128 .f32) (k : Fin 7) (r : Fin 2048) :
    k0_pay7 (F := Ideal) x0 (ix2 k r) = distK x0 r k := by
  unfold k0_pay7
  refine (Ideal.multiReduction_add_single _ _ reduces_S7x2048x128_S7x2048 (.inl rfl) rfl (ix2 k r)).trans ?_
  unfold distK
  refine Finset.sum_congr rfl fun (j : Fin 128) _ => ?_
  rw [lift3]
  have hv7 : extractStridedSlice S7x2048x128 ![1, 0, 0] x0 slices_S8x2048x128_o1_0_0_S7x2048x128 (ix3 k r j)
      = x0 (ix3 (up k) r j) :=
    extractStridedSlice_apply ![1, 0, 0] x0 slices_S8x2048x128_o1_0_0_S7x2048x128 (ix3 k r j) (ix3 (up k) r j)
      (fun a => match a with
        | ⟨0, _⟩ => by show 1 + k.val = 1 + k.val; rfl
        | ⟨1, _⟩ => by show r.val = 0 + r.val; omega
        | ⟨2, _⟩ => by show j.val = 0 + j.val; omega)
  have hv9 : broadcastTo S7x2048x128
        (shapeCast S1x2048x128
          (shapeCast S2048x128 (extractStridedSlice S1x2048x128 ![0, 0, 0] x0 slices_S8x2048x128_o0_0_0_S1x2048x128)
            shapeCasts_S1x2048x128_S2048x128) shapeCasts_S2048x128_S1x2048x128)
        broadcasts_S1x2048x128_S7x2048x128 (ix3 k r j) = x0 (ix3 anchor r j) := by
    rw [shapeCast_shapeCast]
    refine (broadcastTo_apply _ broadcasts_S1x2048x128_S7x2048x128 (ix3 k r j) (ix3 (0 : Fin 1) r j)
      (fun a => match a with
        | ⟨0, _⟩ => by show 0 = if (1 : Nat) = 1 then 0 else k.val; rw [if_pos rfl]
        | ⟨1, _⟩ => by show r.val = if (2048 : Nat) = 1 then 0 else r.val; rw [if_neg (by decide)]
        | ⟨2, _⟩ => by show j.val = if (128 : Nat) = 1 then 0 else j.val; rw [if_neg (by decide)])).trans ?_
    exact extractStridedSlice_apply ![0, 0, 0] x0 slices_S8x2048x128_o0_0_0_S1x2048x128 (ix3 (0 : Fin 1) r j) (ix3 anchor r j)
      (fun a => match a with
        | ⟨0, _⟩ => by show 0 = 0 + 0; rfl
        | ⟨1, _⟩ => by show r.val = 0 + r.val; omega
        | ⟨2, _⟩ => by show j.val = 0 + j.val; omega)
  show (_ - _) * (_ - _) = _
  rw [hv7, hv9]

/-- The class bits: entry `(k, r)` says stream `k + 1` of sample `r` has the anchor's class. -/
private theorem pay8_apply (x1 : Vec Ideal S8x2048 .i32) (k : Fin 7) (r : Fin 2048) :
    k0_pay8 (F := Ideal) x1 (ix2 k r) = sameBits x1 r k := by
  unfold k0_pay8 sameBits
  have hv15 : extractStridedSlice S7x2048 ![1, 0] x1 slices_S8x2048_o1_0_S7x2048 (ix2 k r) = x1 (ix2 (up k) r) :=
    extractStridedSlice_apply ![1, 0] x1 slices_S8x2048_o1_0_S7x2048 (ix2 k r) (ix2 (up k) r)
      (fun a => match a with
        | ⟨0, _⟩ => by show 1 + k.val = 1 + k.val; rfl
        | ⟨1, _⟩ => by show r.val = 0 + r.val; omega)
  have hv17 : broadcastTo S7x2048
        (shapeCast S1x2048
          (shapeCast S2048 (extractStridedSlice S1x2048 ![0, 0] x1 slices_S8x2048_o0_0_S1x2048)
            shapeCasts_S1x2048_S2048) shapeCasts_S2048_S1x2048)
        broadcasts_S1x2048_S7x2048 (ix2 k r) = x1 (ix2 anchor r) := by
    rw [shapeCast_shapeCast]
    refine (broadcastTo_apply _ broadcasts_S1x2048_S7x2048 (ix2 k r) (ix2 (0 : Fin 1) r)
      (fun a => match a with
        | ⟨0, _⟩ => by show 0 = if (1 : Nat) = 1 then 0 else k.val; rw [if_pos rfl]
        | ⟨1, _⟩ => by show r.val = if (2048 : Nat) = 1 then 0 else r.val; rw [if_neg (by decide)])).trans ?_
    exact extractStridedSlice_apply ![0, 0] x1 slices_S8x2048_o0_0_S1x2048 (ix2 (0 : Fin 1) r) (ix2 anchor r)
      (fun a => match a with
        | ⟨0, _⟩ => by show 0 = 0 + 0; rfl
        | ⟨1, _⟩ => by show r.val = 0 + r.val; omega)
  show IntOp.cmpi .eq _ _ = _
  rw [hv15, hv17]

/-- A `[2048]` vector viewed as a `[1, 2048]` row reads its entry `r` at `(0, r)`. -/
private theorem castRow {α : Type} (v : S2048.Idx → α) (r : Fin 2048) :
    shapeCast S1x2048 v shapeCasts_S2048_S1x2048 (ix2 (0 : Fin 1) r) = v (ix1 r) := by
  refine (shapeCast_addUnit_apply ![2048] v shapeCasts_S2048_S1x2048 (ix2 (0 : Fin 1) r)).trans ?_
  refine congrArg v (funext fun a => ?_)
  match a with
  | ⟨0, _⟩ => rfl

/-- The `[1, 1]` block has one index. -/
private theorem idx11 (i : S1x1.Idx) : i = ix2 (0 : Fin 1) (0 : Fin 1) := by
  funext a
  refine Fin.ext ?_
  match a with
  | ⟨0, _⟩ => have h : (i 0).val < 1 := (i 0).isLt; show (i 0).val = 0; omega
  | ⟨1, _⟩ => have h : (i 1).val < 1 := (i 1).isLt; show (i 1).val = 0; omega

/-- A `[1]` vector viewed as a `[1, 1]` block reads its one entry. -/
private theorem castOne {α : Type} (v : S1.Idx → α) (i : S1x1.Idx) :
    shapeCast S1x1 v shapeCasts_S1_S1x1 i = v (ix1 (0 : Fin 1)) := by
  refine (shapeCast_addUnit_apply ![1] v shapeCasts_S1_S1x1 i).trans ?_
  refine congrArg v (funext fun a => ?_)
  refine Fin.ext ?_
  match a with
  | ⟨0, _⟩ => have h : (i 1).val < 1 := (i 1).isLt; show (i 1).val = 0; omega

/-- The masked maximum: entry `(0, r)` is sample `r`'s largest same-class distance. -/
private theorem pay9_apply (x0 : Vec Ideal S8x2048x128 .f32) (x1 : Vec Ideal S8x2048 .i32) (r : Fin 2048) :
    k0_pay9 (F := Ideal) x0 x1 (ix2 (0 : Fin 1) r) = maskedMax (distK x0 r) (sameBits x1 r) := by
  unfold k0_pay9
  refine (castRow _ r).trans ?_
  refine (Ideal.multiReduction_maximumf_single _ _ reduces_S7x2048_S2048 (.inl rfl) rfl (ix1 r)).trans ?_
  unfold maskedMax
  refine congrArg (fun f : Fin 7 → EReal => Finset.fold max NI f Finset.univ) (funext fun (k : Fin 7) => ?_)
  show select (k0_pay8 (F := Ideal) x1) (k0_pay7 (F := Ideal) x0) _ (reduces_S7x2048_S2048.lift (ix1 r) k) = _
  rw [lift7]
  show Scalar.select (k0_pay8 (F := Ideal) x1 (ix2 k r)) (k0_pay7 (F := Ideal) x0 (ix2 k r)) NI = _
  rw [pay8_apply, pay7_apply]

/-- "Some stream has the anchor's class". -/
private theorem pay10_apply (x0 : Vec Ideal S8x2048x128 .f32) (x1 : Vec Ideal S8x2048 .i32) (r : Fin 2048) :
    k0_pay10 (F := Ideal) x0 x1 (ix2 (0 : Fin 1) r) = anySameK (distK x0 r) (sameBits x1 r) := by
  unfold k0_pay10 anySameK
  show Ideal.cmp .ogt (k0_pay9 (F := Ideal) x0 x1 (ix2 (0 : Fin 1) r)) NI = _
  rw [pay9_apply]

/-- The sum of the same-class distances. -/
private theorem pay11_apply (x0 : Vec Ideal S8x2048x128 .f32) (x1 : Vec Ideal S8x2048 .i32) (r : Fin 2048) :
    k0_pay11 (F := Ideal) x0 x1 (ix2 (0 : Fin 1) r) = sameSum (distK x0 r) (sameBits x1 r) := by
  unfold k0_pay11
  refine (castRow _ r).trans ?_
  refine (Ideal.multiReduction_add_single _ _ reduces_S7x2048_S2048 (.inl rfl) rfl (ix1 r)).trans ?_
  unfold sameSum
  refine Finset.sum_congr rfl fun (k : Fin 7) _ => ?_
  rw [lift7]
  show Scalar.select (k0_pay8 (F := Ideal) x1 (ix2 k r)) (k0_pay7 (F := Ideal) x0 (ix2 k r)) F0 = _
  rw [pay8_apply, pay7_apply]

/-- The margins. -/
private theorem pay12_apply (x0 : Vec Ideal S8x2048x128 .f32) (x1 : Vec Ideal S8x2048 .i32) (k : Fin 7) (r : Fin 2048) :
    k0_pay12 (F := Ideal) x0 x1 (ix2 k r) = marginK (distK x0 r) (sameBits x1 r) k := by
  unfold k0_pay12 marginK
  show k0_pay7 (F := Ideal) x0 (ix2 k r) - broadcastTo S7x2048 _ broadcasts_S1x2048_S7x2048 (ix2 k r) = _
  rw [pay7_apply]
  refine congrArg (fun z : EReal => distK x0 r k - z) ?_
  refine (broadcastTo_apply _ broadcasts_S1x2048_S7x2048 (ix2 k r) (ix2 (0 : Fin 1) r)
    (fun a => match a with
      | ⟨0, _⟩ => by show 0 = if (1 : Nat) = 1 then 0 else k.val; rw [if_pos rfl]
      | ⟨1, _⟩ => by show r.val = if (2048 : Nat) = 1 then 0 else r.val; rw [if_neg (by decide)])).trans ?_
  show Scalar.select (k0_pay10 (F := Ideal) x0 x1 (ix2 (0 : Fin 1) r)) (k0_pay9 (F := Ideal) x0 x1 (ix2 (0 : Fin 1) r)) F1 = _
  rw [pay10_apply, pay9_apply]

/-- The negative other-class mask. -/
private theorem pay13_apply (x0 : Vec Ideal S8x2048x128 .f32) (x1 : Vec Ideal S8x2048 .i32) (k : Fin 7) (r : Fin 2048) :
    k0_pay13 (F := Ideal) x0 x1 (ix2 k r) = negK (distK x0 r) (sameBits x1 r) k := by
  unfold k0_pay13 negK
  show IntOp.andi (IntOp.xori (k0_pay8 (F := Ideal) x1 (ix2 k r)) 1#1)
      (Ideal.cmp .olt (k0_pay12 (F := Ideal) x0 x1 (ix2 k r)) F0) = _
  rw [pay8_apply, pay12_apply]

/-- The sum of the negative other-class margins (a `[2048]` vector). -/
private theorem pay14_apply (x0 : Vec Ideal S8x2048x128 .f32) (x1 : Vec Ideal S8x2048 .i32) (r : Fin 2048) :
    k0_pay14 (F := Ideal) x0 x1 (ix1 r) = negSumK (distK x0 r) (sameBits x1 r) := by
  unfold k0_pay14
  refine (Ideal.multiReduction_add_single _ _ reduces_S7x2048_S2048 (.inl rfl) rfl (ix1 r)).trans ?_
  unfold negSumK
  refine Finset.sum_congr rfl fun (k : Fin 7) _ => ?_
  rw [lift7]
  show Scalar.select (k0_pay13 (F := Ideal) x0 x1 (ix2 k r)) (k0_pay12 (F := Ideal) x0 x1 (ix2 k r)) F0 = _
  rw [pay13_apply, pay12_apply]

/-- The include bit. -/
private theorem pay1_apply (x0 : Vec Ideal S8x2048x128 .f32) (x1 : Vec Ideal S8x2048 .i32) (r : Fin 2048) :
    k0_pay1 (F := Ideal) (k0_pay10 x0 x1) (k0_pay13 x0 x1) (ix2 (0 : Fin 1) r)
      = includeK (distK x0 r) (sameBits x1 r) := by
  unfold k0_pay1 includeK
  show IntOp.ori (k0_pay10 (F := Ideal) x0 x1 (ix2 (0 : Fin 1) r))
      (Ideal.cmp .ogt (shapeCast S1x2048 _ shapeCasts_S2048_S1x2048 (ix2 (0 : Fin 1) r)) F0) = _
  rw [pay10_apply]
  refine congrArg (fun z : EReal => IntOp.ori (anySameK (distK x0 r) (sameBits x1 r)) (Ideal.cmp .ogt z F0)) ?_
  refine (castRow _ r).trans ?_
  refine (Ideal.multiReduction_add_single _ _ reduces_S7x2048_S2048 (.inl rfl) rfl (ix1 r)).trans ?_
  unfold negCountK
  refine Finset.sum_congr rfl fun (k : Fin 7) _ => ?_
  rw [lift7]
  show ((((k0_pay13 (F := Ideal) x0 x1 (ix2 k r)).setWidth 32).toInt : ℝ) : EReal) = _
  rw [pay13_apply]

/-! ## What the four stores write -/

theorem sum_step (x0 : Vec Ideal S8x2048x128 .f32) (x1 : Vec Ideal S8x2048 .i32) (acc : Vec Ideal S1x1 .f32) :
    k0_pay2 (F := Ideal) (k0_pay10 x0 x1) (k0_pay11 x0 x1) (k0_pay13 x0 x1) (k0_pay14 x0 x1) acc
      = fun _ => acc (ix2 0 0) + tileSum x0 x1 := by
  funext i
  unfold k0_pay2
  rw [shapeCast_self]
  show acc i + shapeCast S1x1 _ shapeCasts_S1_S1x1 i = _
  rw [idx11 i]
  refine congrArg (fun z : EReal => acc (ix2 0 0) + z) ?_
  refine (castOne _ _).trans ?_
  refine (Ideal.multiReduction_add_single _ _ reduces_S1x2048_S1 (.inl rfl) rfl (ix1 (0 : Fin 1))).trans ?_
  unfold tileSum
  refine Finset.sum_congr rfl fun (r : Fin 2048) _ => ?_
  rw [liftRow]
  unfold termK
  show Scalar.select (k0_pay1 (F := Ideal) (k0_pay10 x0 x1) (k0_pay13 x0 x1) (ix2 (0 : Fin 1) r))
      (k0_pay11 (F := Ideal) x0 x1 (ix2 (0 : Fin 1) r)
        - shapeCast S1x2048 (k0_pay14 (F := Ideal) x0 x1) shapeCasts_S2048_S1x2048 (ix2 (0 : Fin 1) r)) F0 = _
  rw [pay1_apply, pay11_apply, castRow, pay14_apply]

theorem count_step (x0 : Vec Ideal S8x2048x128 .f32) (x1 : Vec Ideal S8x2048 .i32) (acc : Vec Ideal S1x1 .f32) :
    k0_pay3 (F := Ideal) (k0_pay10 x0 x1) (k0_pay13 x0 x1) acc
      = fun _ => acc (ix2 0 0) + tileCount x0 x1 := by
  funext i
  unfold k0_pay3
  rw [shapeCast_self]
  show acc i + shapeCast S1x1 _ shapeCasts_S1_S1x1 i = _
  rw [idx11 i]
  refine congrArg (fun z : EReal => acc (ix2 0 0) + z) ?_
  refine (castOne _ _).trans ?_
  refine (Ideal.multiReduction_add_single _ _ reduces_S1x2048_S1 (.inl rfl) rfl (ix1 (0 : Fin 1))).trans ?_
  unfold tileCount
  refine Finset.sum_congr rfl fun (r : Fin 2048) _ => ?_
  rw [liftRow]
  unfold countK
  show ((((k0_pay1 (F := Ideal) (k0_pay10 x0 x1) (k0_pay13 x0 x1) (ix2 (0 : Fin 1) r)).setWidth 32).toInt : ℝ) : EReal) = _
  rw [pay1_apply]

theorem final_ratio (a b : Vec Ideal S1x1 .f32) :
    k0_pay4 (F := Ideal) a b = fun _ => ratio (a (ix2 0 0)) (b (ix2 0 0)) := by
  funext i
  unfold k0_pay4 ratio
  rw [idx11 i]
  rfl

theorem zero_sum : k0_pay5 (F := Ideal) = fun _ => F0 := by
  funext i
  unfold k0_pay5
  rw [shapeCast_self]
  rfl

theorem zero_count : k0_pay6 (F := Ideal) = fun _ => F0 := by
  funext i
  unfold k0_pay6
  rw [shapeCast_self]
  rfl

end Cert.KernelIdeal.Tile

end
-- ==== Proof.KernelTotal.lean ====
/-
  The kernel's result as one formula of the two argument arrays, over the extended reals.

  At the ideal instance each grid point adds its tile's sum of counted losses to the running sum and its tile's number of
  counted samples to the running count; so after the last tile the two scalars are zero plus the sixty-four tiles' sums, and
  the result is their quotient. Tile `t`'s blocks are rows `2048 t … 2048 t + 2047` of the argument arrays, so each tile's sum
  is a sum over those samples of the batch: the result is the tiled form `SafeLoss.totalK` of the arrays.
-/
import proofs.«151627_j22462678958338_1_alg».proof.Proof.KernelResult
import proofs.«151627_j22462678958338_1_alg».proof.Proof.TileSums
import proofs.«151627_j22462678958338_1_alg».proof.Proof.SampleLoss
import Mathlib.Algebra.BigOperators.Fin

noncomputable section

open Idealize.ShloMosaic Idealize.ShloMosaic.TcCoe Idealize.SL.Sem
open scoped BigOperators

namespace Cert.KernelIdeal.KValue

open Cert.KernelIdeal Cert.KernelIdeal.Gen Cert.KernelIdeal.Tile Idealize.ShloMosaic.ValueIdx SafeLoss

variable (m : (ℓ : Loc nD τ sig) → Buf (Elt Ideal) ℓ)

/-- The two argument arrays on core `c`. -/
abbrev embArr (c : Dev nD) : (⟨3, ![8, 131072, 128]⟩ : Shape).Idx → EReal := m ((c : Thread nD τ).loc main_arg0)
abbrev clsArr (c : Dev nD) : (⟨2, ![8, 131072]⟩ : Shape).Idx → BitVec 32 := m ((c : Thread nD τ).loc main_arg1)

/-! ## A tile's blocks are rows of the arrays -/

/-- The embeddings' window at point `t` is block (0, t, 0); the class words' is block (0, t): decided over the grid. -/
theorem emb_index : ∀ t : Fin cfg0.N, win0_0.index t (0 : Fin 3) = 0 ∧ win0_0.index t (1 : Fin 3) = t.val ∧ win0_0.index t (2 : Fin 3) = 0 :=
  (by decide +kernel : ∀ t : Fin grid0.N, win0_0.index t (0 : Fin 3) = 0 ∧ win0_0.index t (1 : Fin 3) = t.val ∧ win0_0.index t (2 : Fin 3) = 0)
theorem cls_index : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)

/-- Point `t` as a tile number below 64. -/
abbrev tileOf (t : Fin cfg0.N) : Fin 64 := ⟨t.val, lt_of_lt_of_eq t.isLt (show cfg0.N = 64 from N_0)⟩

/-- Entry (a, r, j) of tile `t`'s embeddings block is entry (a, 2048 t + r, j) of the array. -/
theorem emb_read (c : Dev nD) (t : Fin cfg0.N) (a : Fin 8) (r : Fin 2048) (j : Fin 128) :
    embBlk m c t (ix3 a r j) = embArr m c (ix3 a (glob (tileOf t) r) j) := by
  obtain ⟨h0, h1, h2⟩ := emb_index t
  show iblk m c 0 t (ix3 a r j) = _
  unfold iblk
  rw [View.read_apply]
  show V m c main_arg0 _ = m ((c : Thread nD τ).loc main_arg0) _
  rw [V_main_arg0]
  congr 1
  funext b
  apply Fin.ext
  match b with
  | ⟨0, _⟩ => show win0_0.index t 0 * 8 + 1 * a.val = a.val; rw [h0]; omega
  | ⟨1, _⟩ => show win0_0.index t 1 * 2048 + 1 * r.val = t.val * 2048 + r.val; rw [h1]; omega
  | ⟨2, _⟩ => show win0_0.index t 2 * 128 + 1 * j.val = j.val; rw [h2]; omega

/-- Entry (a, r) of tile `t`'s class-word block is entry (a, 2048 t + r) of the array. -/
theorem cls_read (c : Dev nD) (t : Fin cfg0.N) (a : Fin 8) (r : Fin 2048) :
    clsBlk m c t (ix2 a r) = clsArr m c (ix2 a (glob (tileOf t) r)) := by
  obtain ⟨h0, h1⟩ := cls_index t
  show iblk m c 1 t (ix2 a r) = _
  unfold iblk
  rw [View.read_apply]
  show V m c main_arg1 _ = m ((c : Thread nD τ).loc main_arg1) _
  rw [V_main_arg1]
  congr 1
  funext b
  apply Fin.ext
  match b with
  | ⟨0, _⟩ => show win0_1.index t 0 * 8 + 1 * a.val = a.val; rw [h0]; omega
  | ⟨1, _⟩ => show win0_1.index t 1 * 2048 + 1 * r.val = t.val * 2048 + r.val; rw [h1]; omega

/-- So sample `r` of tile `t` has the distances and class bits of sample `2048 t + r` of the batch. -/
theorem dist_blk (c : Dev nD) (t : Fin cfg0.N) (r : Fin 2048) :
    distK (embBlk m c t) r = distK (embArr m c) (glob (tileOf t) r) := by
  funext k
  unfold distK
  refine Finset.sum_congr rfl fun j _ => ?_
  rw [emb_read, emb_read]
theorem bits_blk (c : Dev nD) (t : Fin cfg0.N) (r : Fin 2048) :
    sameBits (clsBlk m c t) r = sameBits (clsArr m c) (glob (tileOf t) r) := by
  funext k
  unfold sameBits
  rw [cls_read, cls_read]

/-- Tile `n`'s sum of counted losses and number of counted samples, as sums over its samples of the batch (zero past the grid). -/
def tsum (c : Dev nD) (n : ℕ) : EReal :=
  if h : n < 64 then ∑ r : Fin 2048, termK (distK (embArr m c) (glob ⟨n, h⟩ r)) (sameBits (clsArr m c) (glob ⟨n, h⟩ r)) else 0
def tcount (c : Dev nD) (n : ℕ) : EReal :=
  if h : n < 64 then ∑ r : Fin 2048, countK (distK (embArr m c) (glob ⟨n, h⟩ r)) (sameBits (clsArr m c) (glob ⟨n, h⟩ r)) else 0

theorem tileSum_blk (c : Dev nD) (t : Fin cfg0.N) : tileSum (embBlk m c t) (clsBlk m c t) = tsum m c t.val := by
  unfold tileSum tsum
  rw [dif_pos (tileOf t).isLt]
  exact Finset.sum_congr rfl fun r _ => by rw [dist_blk, bits_blk]
theorem tileCount_blk (c : Dev nD) (t : Fin cfg0.N) : tileCount (embBlk m c t) (clsBlk m c t) = tcount m c t.val := by
  unfold tileCount tcount
  rw [dif_pos (tileOf t).isLt]
  exact Finset.sum_congr rfl fun r _ => by rw [dist_blk, bits_blk]

/-! ## The two running scalars are zero plus the tiles' sums so far -/

theorem runSum_eq (c : Dev nD) : ∀ (n : ℕ) (h : n < cfg0.N),
    runSum m c n h = fun _ => F0 + ∑ t ∈ Finset.range (n + 1), tsum m c t
  | 0, h => by
    refine (sum_step (embBlk m c ⟨0, h⟩) (clsBlk m c ⟨0, h⟩) zeroS).trans ?_
    funext _
    have hz : (zeroS : Vec Ideal S1x1 .f32) (ix2 0 0) = F0 := congrFun zero_sum _
    show zeroS (ix2 0 0) + tileSum _ _ = F0 + _
    rw [hz, tileSum_blk, Finset.sum_range_one]
  | n + 1, h => by
    refine (sum_step (embBlk m c ⟨n + 1, h⟩) (clsBlk m c ⟨n + 1, h⟩) (runSum m c n (Nat.lt_of_succ_lt h))).trans ?_
    funext _
    show runSum m c n _ (ix2 0 0) + tileSum _ _ = F0 + _
    rw [runSum_eq c n, tileSum_blk, Finset.sum_range_succ _ (n + 1), add_assoc]

theorem runCount_eq (c : Dev nD) : ∀ (n : ℕ) (h : n < cfg0.N),
    runCount m c n h = fun _ => F0 + ∑ t ∈ Finset.range (n + 1), tcount m c t
  | 0, h => by
    refine (count_step (embBlk m c ⟨0, h⟩) (clsBlk m c ⟨0, h⟩) zeroC).trans ?_
    funext _
    have hz : (zeroC : Vec Ideal S1x1 .f32) (ix2 0 0) = F0 := congrFun zero_count _
    show zeroC (ix2 0 0) + tileCount _ _ = F0 + _
    rw [hz, tileCount_blk, Finset.sum_range_one]
  | n + 1, h => by
    refine (count_step (embBlk m c ⟨n + 1, h⟩) (clsBlk m c ⟨n + 1, h⟩) (runCount m c n (Nat.lt_of_succ_lt h))).trans ?_
    funext _
    show runCount m c n _ (ix2 0 0) + tileCount _ _ = F0 + _
    rw [runCount_eq c n, tileCount_blk, Finset.sum_range_succ _ (n + 1), add_assoc]

/-- The sum of the tiles' sums over the 64 tiles, as the double sum of the tiled form. -/
theorem sum_tsum (c : Dev nD) :
    ∑ t ∈ Finset.range 64, tsum m c t
      = ∑ t : Fin 64, ∑ r : Fin 2048, termK (distK (embArr m c) (glob t r)) (sameBits (clsArr m c) (glob t r)) := by
  rw [Finset.sum_range]
  exact Finset.sum_congr rfl fun t _ => by unfold tsum; rw [dif_pos t.isLt]
theorem sum_tcount (c : Dev nD) :
    ∑ t ∈ Finset.range 64, tcount m c t
      = ∑ t : Fin 64, ∑ r : Fin 2048, countK (distK (embArr m c) (glob t r)) (sameBits (clsArr m c) (glob t r)) := by
  rw [Finset.sum_range]
  exact Finset.sum_congr rfl fun t _ => by unfold tcount; rw [dif_pos t.isLt]

/-- THE KERNEL'S RESULT: the tiled form of the loss of the two argument arrays. -/
theorem result_eq (c : Dev nD) : result m c = fun _ => totalK (embArr m c) (clsArr m c) := by
  show shapeCast S_ (k0_pay4 (F := Ideal) (finalSum m c) (finalCount m c)) shapeCasts_S1x1_S_ = _
  rw [final_ratio]
  show (fun _ => ratio (finalSum m c (ix2 0 0)) (finalCount m c (ix2 0 0))) = _
  funext _
  show ratio (runSum m c 63 _ (ix2 0 0)) (runCount m c 63 _ (ix2 0 0)) = _
  rw [runSum_eq, runCount_eq]
  show ratio (F0 + ∑ t ∈ Finset.range 64, tsum m c t) (F0 + ∑ t ∈ Finset.range 64, tcount m c t) = _
  rw [sum_tsum, sum_tcount]
  rfl

end Cert.KernelIdeal.KValue

end
-- ==== Proof.RefRun.lean ====
/-
  The reference's run: after every execution its result buffer holds the last stage of the reference, as a function of the
  two argument arrays, and the arguments are unchanged.

  The reference is a straight line of 63 host operations. What its result buffer holds afterwards is the composition of the
  operations' functions; here that composition is walked in eight stretches, each stretch's outputs named by the stage
  functions `val_main_vN` (one per operation, each a function of the two arguments), so that no term ever holds more than one
  stretch of operations: the squared distances; the class bits and their or; the masked maximum, alpha, the same-class sums and
  the margins; the negative-margin mask, its sum and the include bit; the loss, the two totals and the quotient.
-/
import proofs.«151627_j22462678958338_1_alg».proof.Proof.RefOps
import proofs.«151627_j22462678958338_1_alg».proof.Proof.RefRead
import Idealize.ShloMosaic.Lib.Pipeline.Frame

noncomputable section

namespace Cert.ReferenceIdeal.Walk

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The stretches of @main's operations, in order. -/
abbrev stretch1 : List (HloOp τ sig (Elt F)) :=
  [ unary main_arg0 main_v0 ((extractStridedSlice S1x131072x128 ![0, 0, 0] · slices_S8x131072x128_S1x131072x128_0_0_0) : (⟨S8x131072x128, .f32⟩ : BufTy).Contents (Elt F) → (⟨S1x131072x128, .f32⟩ : BufTy).Contents (Elt F)),
    reshape main_v0 main_v1 rfl shapeCasts_S1x131072x128_S131072x128,
    unary main_v1 main_v2 (broadcastInDim S1x131072x128 ![1, 2] bcast_S131072x128_S1x131072x128_1_2 : (⟨S131072x128, .f32⟩ : BufTy).Contents (Elt F) → (⟨S1x131072x128, .f32⟩ : BufTy).Contents (Elt F)),
    unary main_arg0 main_v3 ((extractStridedSlice S7x131072x128 ![1, 0, 0] · slices_S8x131072x128_S7x131072x128_1_0_0) : (⟨S8x131072x128, .f32⟩ : BufTy).Contents (Elt F) → (⟨S7x131072x128, .f32⟩ : BufTy).Contents (Elt F)),
    unary main_v2 main_v4 (broadcastInDim S7x131072x128 ![0, 1, 2] bcast_S1x131072x128_S7x131072x128_0_1_2 : (⟨S1x131072x128, .f32⟩ : BufTy).Contents (Elt F) → (⟨S7x131072x128, .f32⟩ : BufTy).Contents (Elt F)),
    binary main_v4 main_v3 main_v5 (subf : (⟨S7x131072x128, .f32⟩ : BufTy).Contents (Elt F) → (⟨S7x131072x128, .f32⟩ : BufTy).Contents (Elt F) → (⟨S7x131072x128, .f32⟩ : BufTy).Contents (Elt F)),
    binary main_v5 main_v5 main_v6 (mulf : (⟨S7x131072x128, .f32⟩ : BufTy).Contents (Elt F) → (⟨S7x131072x128, .f32⟩ : BufTy).Contents (Elt F) → (⟨S7x131072x128, .f32⟩ : BufTy).Contents (Elt F)),
    nullary main_cst (constant S_ .f32 0x00000000#32),
    binary main_v6 main_cst main_v7 ((fun x v => Host.reduceAdd x v reducesTo_S7x131072x128_S7x131072_d2 h_S_) : (⟨S7x131072x128, .f32⟩ : BufTy).Contents (Elt F) → (⟨S_, .f32⟩ : BufTy).Contents (Elt F) → (⟨S7x131072, .f32⟩ : BufTy).Contents (Elt F)) ]
abbrev stretch2 : List (HloOp τ sig (Elt F)) :=
  [ unary main_arg1 main_v8 ((extractStridedSlice S7x131072 ![1, 0] · slices_S8x131072_S7x131072_1_0) : (⟨S8x131072, .i32⟩ : BufTy).Contents (Elt F) → (⟨S7x131072, .i32⟩ : BufTy).Contents (Elt F)),
    unary main_arg1 main_v9 ((extractStridedSlice S1x131072 ![0, 0] · slices_S8x131072_S1x131072_0_0) : (⟨S8x131072, .i32⟩ : BufTy).Contents (Elt F) → (⟨S1x131072, .i32⟩ : BufTy).Contents (Elt F)),
    reshape main_v9 main_v10 rfl shapeCasts_S1x131072_S131072,
    unary main_v10 main_v11 (broadcastInDim S1x131072 ![1] bcast_S131072_S1x131072_1 : (⟨S131072, .i32⟩ : BufTy).Contents (Elt F) → (⟨S1x131072, .i32⟩ : BufTy).Contents (Elt F)),
    unary main_v11 main_v12 (broadcastInDim S7x131072 ![0, 1] bcast_S1x131072_S7x131072_0_1 : (⟨S1x131072, .i32⟩ : BufTy).Contents (Elt F) → (⟨S7x131072, .i32⟩ : BufTy).Contents (Elt F)),
    binary main_v8 main_v12 main_v13 (cmpi .eq : (⟨S7x131072, .i32⟩ : BufTy).Contents (Elt F) → (⟨S7x131072, .i32⟩ : BufTy).Contents (Elt F) → (⟨S7x131072, .i1⟩ : BufTy).Contents (Elt F)),
    nullary main_c (constantI S_ 1 0#1),
    binary main_v13 main_c main_v14 ((fun x v => Host.reduce IntOp.ori x v reducesTo_S7x131072_S131072_d0 h_S_) : (⟨S7x131072, .i1⟩ : BufTy).Contents (Elt F) → (⟨S_, .i1⟩ : BufTy).Contents (Elt F) → (⟨S131072, .i1⟩ : BufTy).Contents (Elt F)) ]
abbrev t3a : List (HloOp τ sig (Elt F)) :=
  [ nullary main_cst_0 (constant S_ .f32 0xFF800000#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S7x131072, .f32⟩) main_call0_v1) (broadcastInDim S7x131072 ![] bcast_S_S7x131072),
    TRef.ternary (TRef.of (T := ⟨S7x131072, .i1⟩) main_v13) (TRef.of (T := ⟨S7x131072, .f32⟩) main_v7) (TRef.of (T := ⟨S7x131072, .f32⟩) main_call0_v1) (TRef.of (T := ⟨S7x131072, .f32⟩) main_v15) select,
    nullary main_cst_1 (constant S_ .f32 0xFF800000#32),
    binary main_v15 main_cst_1 main_v16 ((fun x v => Host.reduce FloatOps.maximumf x v reducesTo_S7x131072_S131072_d0 h_S_) : (⟨S7x131072, .f32⟩ : BufTy).Contents (Elt F) → (⟨S_, .f32⟩ : BufTy).Contents (Elt F) → (⟨S131072, .f32⟩ : BufTy).Contents (Elt F)) ]
abbrev t3b : List (HloOp τ sig (Elt F)) :=
  [ nullary main_cst_2 (constant S_ .f32 0x3F800000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S131072, .f32⟩) main_call1_v1) (broadcastInDim S131072 ![] bcast_S_S131072),
    TRef.ternary (TRef.of (T := ⟨S131072, .i1⟩) main_v14) (TRef.of (T := ⟨S131072, .f32⟩) main_v16) (TRef.of (T := ⟨S131072, .f32⟩) main_call1_v1) (TRef.of (T := ⟨S131072, .f32⟩) main_v17) select ]
abbrev t3c : List (HloOp τ sig (Elt F)) :=
  [ nullary main_cst_3 (constant S_ .f32 0x00000000#32),
    TRef.unary (TRef.of (T := ⟨S_, .f32⟩) main_cst_3) (TRef.of (T := ⟨S_, .f32⟩) main_call2_v0) id,
    TRef.unary (TRef.of (T := ⟨S_, .f32⟩) main_call2_v0) (TRef.of (T := ⟨S7x131072, .f32⟩) main_call2_v1) (broadcastInDim S7x131072 ![] bcast_S_S7x131072),
    TRef.ternary (TRef.of (T := ⟨S7x131072, .i1⟩) main_v13) (TRef.of (T := ⟨S7x131072, .f32⟩) main_v7) (TRef.of (T := ⟨S7x131072, .f32⟩) main_call2_v1) (TRef.of (T := ⟨S7x131072, .f32⟩) main_v18) select,
    nullary main_cst_4 (constant S_ .f32 0x00000000#32),
    binary main_v18 main_cst_4 main_v19 ((fun x v => Host.reduceAdd x v reducesTo_S7x131072_S131072_d0 h_S_) : (⟨S7x131072, .f32⟩ : BufTy).Contents (Elt F) → (⟨S_, .f32⟩ : BufTy).Contents (Elt F) → (⟨S131072, .f32⟩ : BufTy).Contents (Elt F)) ]
abbrev t3d : List (HloOp τ sig (Elt F)) :=
  [ unary main_v17 main_v20 (broadcastInDim S1x131072 ![1] bcast_S131072_S1x131072_1 : (⟨S131072, .f32⟩ : BufTy).Contents (Elt F) → (⟨S1x131072, .f32⟩ : BufTy).Contents (Elt F)),
    unary main_v20 main_v21 (broadcastInDim S7x131072 ![0, 1] bcast_S1x131072_S7x131072_0_1 : (⟨S1x131072, .f32⟩ : BufTy).Contents (Elt F) → (⟨S7x131072, .f32⟩ : BufTy).Contents (Elt F)),
    binary main_v7 main_v21 main_v22 (subf : (⟨S7x131072, .f32⟩ : BufTy).Contents (Elt F) → (⟨S7x131072, .f32⟩ : BufTy).Contents (Elt F) → (⟨S7x131072, .f32⟩ : BufTy).Contents (Elt F)) ]
abbrev stretch4 : List (HloOp τ sig (Elt F)) :=
  [ unary main_v13 main_v23 (noti : (⟨S7x131072, .i1⟩ : BufTy).Contents (Elt F) → (⟨S7x131072, .i1⟩ : BufTy).Contents (Elt F)),
    nullary main_cst_5 (constant S_ .f32 0x00000000#32),
    unary main_cst_5 main_v24 (broadcastInDim S7x131072 ![] bcast_S_S7x131072 : (⟨S_, .f32⟩ : BufTy).Contents (Elt F) → (⟨S7x131072, .f32⟩ : BufTy).Contents (Elt F)),
    binary main_v22 main_v24 main_v25 (cmpf .olt : (⟨S7x131072, .f32⟩ : BufTy).Contents (Elt F) → (⟨S7x131072, .f32⟩ : BufTy).Contents (Elt F) → (⟨S7x131072, .i1⟩ : BufTy).Contents (Elt F)),
    binary main_v23 main_v25 main_v26 (andi : (⟨S7x131072, .i1⟩ : BufTy).Contents (Elt F) → (⟨S7x131072, .i1⟩ : BufTy).Contents (Elt F) → (⟨S7x131072, .i1⟩ : BufTy).Contents (Elt F)),
    nullary main_cst_6 (constant S_ .f32 0x00000000#32),
    TRef.unary (TRef.of (T := ⟨S_, .f32⟩) main_cst_6) (TRef.of (T := ⟨S_, .f32⟩) main_call3_v0) id,
    TRef.unary (TRef.of (T := ⟨S_, .f32⟩) main_call3_v0) (TRef.of (T := ⟨S7x131072, .f32⟩) main_call3_v1) (broadcastInDim S7x131072 ![] bcast_S_S7x131072),
    TRef.ternary (TRef.of (T := ⟨S7x131072, .i1⟩) main_v26) (TRef.of (T := ⟨S7x131072, .f32⟩) main_v22) (TRef.of (T := ⟨S7x131072, .f32⟩) main_call3_v1) (TRef.of (T := ⟨S7x131072, .f32⟩) main_v27) select,
    nullary main_cst_7 (constant S_ .f32 0x00000000#32),
    binary main_v27 main_cst_7 main_v28 ((fun x v => Host.reduceAdd x v reducesTo_S7x131072_S131072_d0 h_S_) : (⟨S7x131072, .f32⟩ : BufTy).Contents (Elt F) → (⟨S_, .f32⟩ : BufTy).Contents (Elt F) → (⟨S131072, .f32⟩ : BufTy).Contents (Elt F)),
    nullary main_c_8 (constantI S_ 1 0#1),
    binary main_v26 main_c_8 main_v29 ((fun x v => Host.reduce IntOp.ori x v reducesTo_S7x131072_S131072_d0 h_S_) : (⟨S7x131072, .i1⟩ : BufTy).Contents (Elt F) → (⟨S_, .i1⟩ : BufTy).Contents (Elt F) → (⟨S131072, .i1⟩ : BufTy).Contents (Elt F)),
    binary main_v14 main_v29 main_v30 (ori : (⟨S131072, .i1⟩ : BufTy).Contents (Elt F) → (⟨S131072, .i1⟩ : BufTy).Contents (Elt F) → (⟨S131072, .i1⟩ : BufTy).Contents (Elt F)) ]
abbrev stretch5 : List (HloOp τ sig (Elt F)) :=
  [ binary main_v19 main_v28 main_v31 (subf : (⟨S131072, .f32⟩ : BufTy).Contents (Elt F) → (⟨S131072, .f32⟩ : BufTy).Contents (Elt F) → (⟨S131072, .f32⟩ : BufTy).Contents (Elt F)),
    unary main_v30 main_v32 (uitofp .f32 : (⟨S131072, .i1⟩ : BufTy).Contents (Elt F) → (⟨S131072, .f32⟩ : BufTy).Contents (Elt F)),
    nullary main_cst_9 (constant S_ .f32 0x00000000#32),
    binary main_v32 main_cst_9 main_v33 ((fun x v => Host.reduceAdd x v reducesTo_S131072_S_d0 h_S_) : (⟨S131072, .f32⟩ : BufTy).Contents (Elt F) → (⟨S_, .f32⟩ : BufTy).Contents (Elt F) → (⟨S_, .f32⟩ : BufTy).Contents (Elt F)),
    nullary main_cst_10 (constant S_ .f32 0x3F800000#32),
    binary main_v33 main_cst_10 main_v34 (maximumf : (⟨S_, .f32⟩ : BufTy).Contents (Elt F) → (⟨S_, .f32⟩ : BufTy).Contents (Elt F) → (⟨S_, .f32⟩ : BufTy).Contents (Elt F)),
    nullary main_cst_11 (constant S_ .f32 0x00000000#32),
    TRef.unary (TRef.of (T := ⟨S_, .f32⟩) main_cst_11) (TRef.of (T := ⟨S_, .f32⟩) main_call4_v0) id,
    TRef.unary (TRef.of (T := ⟨S_, .f32⟩) main_call4_v0) (TRef.of (T := ⟨S131072, .f32⟩) main_call4_v1) (broadcastInDim S131072 ![] bcast_S_S131072),
    TRef.ternary (TRef.of (T := ⟨S131072, .i1⟩) main_v30) (TRef.of (T := ⟨S131072, .f32⟩) main_v31) (TRef.of (T := ⟨S131072, .f32⟩) main_call4_v1) (TRef.of (T := ⟨S131072, .f32⟩) main_v35) select,
    nullary main_cst_12 (constant S_ .f32 0x00000000#32),
    binary main_v35 main_cst_12 main_v36 ((fun x v => Host.reduceAdd x v reducesTo_S131072_S_d0 h_S_) : (⟨S131072, .f32⟩ : BufTy).Contents (Elt F) → (⟨S_, .f32⟩ : BufTy).Contents (Elt F) → (⟨S_, .f32⟩ : BufTy).Contents (Elt F)),
    binary main_v36 main_v34 main_v37 (Host.divf : (⟨S_, .f32⟩ : BufTy).Contents (Elt F) → (⟨S_, .f32⟩ : BufTy).Contents (Elt F) → (⟨S_, .f32⟩ : BufTy).Contents (Elt F)) ]

theorem ops_eq : (ops : List (HloOp τ sig (Elt F)))
    = stretch1 ++ (stretch2 ++ (t3a ++ (t3b ++ (t3c ++ (t3d ++ (stretch4 ++ stretch5)))))) := rfl

abbrev X0 := (⟨S8x131072x128, .f32⟩ : BufTy).Contents (Elt F)
abbrev X1 := (⟨S8x131072, .i32⟩ : BufTy).Contents (Elt F)

variable (W : Valuation τ sig (Elt F)) (x0 : X0 (F := F)) (x1 : X1 (F := F))

/-! ## Stretch 1: the squared distances -/

theorem s1_v7 (h0 : W (Proc.devRef .tc main_arg0) = x0) :
    after stretch1 W (Proc.devRef .tc main_v7) = val_main_v7 (F := F) x0 := by
  after_results_simp
  rw [h0]
  unfold val_main_v7 val_main_cst val_main_v6 val_main_v5 val_main_v4 val_main_v2 val_main_v1 val_main_v0 val_main_v3
  rfl
theorem s1_arg1 : after stretch1 W (Proc.devRef .tc main_arg1) = W (Proc.devRef .tc main_arg1) := by
  after_results_simp

/-! ## Stretch 2: the class bits and their or; the distances pass through -/

theorem s2_v13 (h1 : W (Proc.devRef .tc main_arg1) = x1) :
    after stretch2 W (Proc.devRef .tc main_v13) = val_main_v13 (F := F) x1 := by
  after_results_simp
  rw [h1]
  unfold val_main_v13 val_main_v8 val_main_v12 val_main_v11 val_main_v10 val_main_v9
  rfl
theorem s2_v14 (h1 : W (Proc.devRef .tc main_arg1) = x1) :
    after stretch2 W (Proc.devRef .tc main_v14) = val_main_v14 (F := F) x1 := by
  after_results_simp
  rw [h1]
  unfold val_main_v14 val_main_c val_main_v13 val_main_v8 val_main_v12 val_main_v11 val_main_v10 val_main_v9
  rfl
theorem s2_v7 : after stretch2 W (Proc.devRef .tc main_v7) = W (Proc.devRef .tc main_v7) := by
  after_results_simp

/-! ## Stretch 3, in four steps: the masked maximum; alpha; the same-class sum; the margins -/

theorem t3a_v16 (h7 : W (Proc.devRef .tc main_v7) = val_main_v7 (F := F) x0) (h13 : W (Proc.devRef .tc main_v13) = val_main_v13 (F := F) x1) :
    after t3a W (Proc.devRef .tc main_v16) = val_main_v16 (F := F) x0 x1 := by
  after_results_simp
  (try simp only [TRef.ofBuf, TRef.toBuf, cast_eq])
  simp only [h7, h13]
  unfold val_main_v16 val_main_cst_1 val_main_v15 val_main_call0_v1 val_main_call0_v0 val_main_cst_0
  rfl
theorem t3a_v7 : after t3a W (Proc.devRef .tc main_v7) = W (Proc.devRef .tc main_v7) := by
  after_results_simp
theorem t3a_v13 : after t3a W (Proc.devRef .tc main_v13) = W (Proc.devRef .tc main_v13) := by
  after_results_simp
theorem t3a_v14 : after t3a W (Proc.devRef .tc main_v14) = W (Proc.devRef .tc main_v14) := by
  after_results_simp

theorem t3b_v17 (h14 : W (Proc.devRef .tc main_v14) = val_main_v14 (F := F) x1) (h16 : W (Proc.devRef .tc main_v16) = val_main_v16 (F := F) x0 x1) :
    after t3b W (Proc.devRef .tc main_v17) = val_main_v17 (F := F) x0 x1 := by
  after_results_simp
  (try simp only [TRef.ofBuf, TRef.toBuf, cast_eq])
  simp only [h14, h16]
  unfold val_main_v17 val_main_call1_v1 val_main_call1_v0 val_main_cst_2
  rfl
theorem t3b_v7 : after t3b W (Proc.devRef .tc main_v7) = W (Proc.devRef .tc main_v7) := by
  after_results_simp
theorem t3b_v13 : after t3b W (Proc.devRef .tc main_v13) = W (Proc.devRef .tc main_v13) := by
  after_results_simp
theorem t3b_v14 : after t3b W (Proc.devRef .tc main_v14) = W (Proc.devRef .tc main_v14) := by
  after_results_simp

theorem t3c_v19 (h7 : W (Proc.devRef .tc main_v7) = val_main_v7 (F := F) x0) (h13 : W (Proc.devRef .tc main_v13) = val_main_v13 (F := F) x1) :
    after t3c W (Proc.devRef .tc main_v19) = val_main_v19 (F := F) x0 x1 := by
  after_results_simp
  (try simp only [TRef.ofBuf, TRef.toBuf, cast_eq])
  simp only [h7, h13]
  unfold val_main_v19 val_main_cst_4 val_main_v18 val_main_call2_v1 val_main_call2_v0 val_main_cst_3
  rfl
theorem t3c_v7 : after t3c W (Proc.devRef .tc main_v7) = W (Proc.devRef .tc main_v7) := by
  after_results_simp
theorem t3c_v13 : after t3c W (Proc.devRef .tc main_v13) = W (Proc.devRef .tc main_v13) := by
  after_results_simp
theorem t3c_v14 : after t3c W (Proc.devRef .tc main_v14) = W (Proc.devRef .tc main_v14) := by
  after_results_simp
theorem t3c_v17 : after t3c W (Proc.devRef .tc main_v17) = W (Proc.devRef .tc main_v17) := by
  after_results_simp

theorem t3d_v22 (h7 : W (Proc.devRef .tc main_v7) = val_main_v7 (F := F) x0) (h17 : W (Proc.devRef .tc main_v17) = val_main_v17 (F := F) x0 x1) :
    after t3d W (Proc.devRef .tc main_v22) = val_main_v22 (F := F) x0 x1 := by
  after_results_simp
  (try simp only [TRef.ofBuf, TRef.toBuf, cast_eq])
  simp only [h7, h17]
  unfold val_main_v22 val_main_v21 val_main_v20
  rfl
theorem t3d_v13 : after t3d W (Proc.devRef .tc main_v13) = W (Proc.devRef .tc main_v13) := by
  after_results_simp
theorem t3d_v14 : after t3d W (Proc.devRef .tc main_v14) = W (Proc.devRef .tc main_v14) := by
  after_results_simp
theorem t3d_v19 : after t3d W (Proc.devRef .tc main_v19) = W (Proc.devRef .tc main_v19) := by
  after_results_simp

/-! ## Stretch 4: the negative-margin mask, the sum of the negative margins, the include bit -/

section
variable (h13 : W (Proc.devRef .tc main_v13) = val_main_v13 (F := F) x1) (h14 : W (Proc.devRef .tc main_v14) = val_main_v14 (F := F) x1)
  (h22 : W (Proc.devRef .tc main_v22) = val_main_v22 (F := F) x0 x1)
include h13 h14 h22

theorem s4_v28 : after stretch4 W (Proc.devRef .tc main_v28) = val_main_v28 (F := F) x0 x1 := by
  after_results_simp
  (try simp only [TRef.ofBuf, TRef.toBuf, cast_eq])
  simp only [h13, h22]
  unfold val_main_v28 val_main_cst_7 val_main_v27 val_main_call3_v1 val_main_call3_v0 val_main_cst_6 val_main_v26 val_main_v23 val_main_v25 val_main_v24 val_main_cst_5
  rfl
theorem s4_v30 : after stretch4 W (Proc.devRef .tc main_v30) = val_main_v30 (F := F) x0 x1 := by
  after_results_simp
  (try simp only [TRef.ofBuf, TRef.toBuf, cast_eq])
  simp only [h13, h14, h22]
  unfold val_main_v30 val_main_v29 val_main_c_8 val_main_v26 val_main_v23 val_main_v25 val_main_v24 val_main_cst_5
  rfl
end
theorem s4_v19 : after stretch4 W (Proc.devRef .tc main_v19) = W (Proc.devRef .tc main_v19) := by
  after_results_simp

/-! ## Stretch 5: the loss, the two totals and the quotient -/

theorem s5_v37 (h19 : W (Proc.devRef .tc main_v19) = val_main_v19 (F := F) x0 x1) (h28 : W (Proc.devRef .tc main_v28) = val_main_v28 (F := F) x0 x1)
    (h30 : W (Proc.devRef .tc main_v30) = val_main_v30 (F := F) x0 x1) :
    after stretch5 W (Proc.devRef .tc main_v37) = val_main_v37 (F := F) x0 x1 := by
  after_results_simp
  (try simp only [TRef.ofBuf, TRef.toBuf, cast_eq])
  simp only [h19, h28, h30]
  unfold val_main_v37 val_main_v36 val_main_cst_12 val_main_v35 val_main_v31 val_main_call4_v1 val_main_call4_v0 val_main_cst_11 val_main_v34 val_main_cst_10 val_main_v33 val_main_cst_9 val_main_v32
  rfl

/-! ## The whole line -/

/-- After all 63 operations the result buffer holds the last stage of the two argument arrays' launch contents. -/
theorem result_walk (V : Valuation τ sig (Elt F)) :
    after ops V (Proc.devRef .tc main_v37)
      = val_main_v37 (F := F) (V (Proc.devRef .tc main_arg0)) (V (Proc.devRef .tc main_arg1)) := by
  rw [ops_eq, after_append, after_append, after_append, after_append, after_append, after_append, after_append]
  have a7 := s1_v7 V (V (Proc.devRef .tc main_arg0)) rfl
  have a1 := s1_arg1 V
  have b13 := s2_v13 (after stretch1 V) (V (Proc.devRef .tc main_arg1)) a1
  have b14 := s2_v14 (after stretch1 V) (V (Proc.devRef .tc main_arg1)) a1
  have b7 := (s2_v7 (after stretch1 V)).trans a7
  have c16 := t3a_v16 (after stretch2 (after stretch1 V)) _ _ b7 b13
  have c7 := (t3a_v7 (after stretch2 (after stretch1 V))).trans b7
  have c13 := (t3a_v13 (after stretch2 (after stretch1 V))).trans b13
  have c14 := (t3a_v14 (after stretch2 (after stretch1 V))).trans b14
  have d17 := t3b_v17 (after t3a (after stretch2 (after stretch1 V))) _ _ c14 c16
  have d7 := (t3b_v7 (after t3a (after stretch2 (after stretch1 V)))).trans c7
  have d13 := (t3b_v13 (after t3a (after stretch2 (after stretch1 V)))).trans c13
  have d14 := (t3b_v14 (after t3a (after stretch2 (after stretch1 V)))).trans c14
  have e19 := t3c_v19 (after t3b (after t3a (after stretch2 (after stretch1 V)))) _ _ d7 d13
  have e7 := (t3c_v7 (after t3b (after t3a (after stretch2 (after stretch1 V))))).trans d7
  have e13 := (t3c_v13 (after t3b (after t3a (after stretch2 (after stretch1 V))))).trans d13
  have e14 := (t3c_v14 (after t3b (after t3a (after stretch2 (after stretch1 V))))).trans d14
  have e17 := (t3c_v17 (after t3b (after t3a (after stretch2 (after stretch1 V))))).trans d17
  have f22 := t3d_v22 (after t3c (after t3b (after t3a (after stretch2 (after stretch1 V))))) _ _ e7 e17
  have f13 := (t3d_v13 (after t3c (after t3b (after t3a (after stretch2 (after stretch1 V)))))).trans e13
  have f14 := (t3d_v14 (after t3c (after t3b (after t3a (after stretch2 (after stretch1 V)))))).trans e14
  have f19 := (t3d_v19 (after t3c (after t3b (after t3a (after stretch2 (after stretch1 V)))))).trans e19
  have g28 := s4_v28 (after t3d (after t3c (after t3b (after t3a (after stretch2 (after stretch1 V)))))) _ _ f13 f14 f22
  have g30 := s4_v30 (after t3d (after t3c (after t3b (after t3a (after stretch2 (after stretch1 V)))))) _ _ f13 f14 f22
  have g19 := (s4_v19 (after t3d (after t3c (after t3b (after t3a (after stretch2 (after stretch1 V))))))).trans f19
  exact s5_v37 _ _ _ g19 g28 g30

/-- No operation writes an argument. -/
theorem arg0_kept (V : Valuation τ sig (Elt F)) : after ops V (Proc.devRef .tc main_arg0) = V (Proc.devRef .tc main_arg0) := by
  after_results_simp
theorem arg1_kept (V : Valuation τ sig (Elt F)) : after ops V (Proc.devRef .tc main_arg1) = V (Proc.devRef .tc main_arg1) := by
  after_results_simp

set_option maxRecDepth 8192 in
set_option maxHeartbeats 25200000 in
/-- On every device, from any memory with zero counters: every weakly fair execution of the reference terminates with its
    result at the last stage of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37)
        = val_main_v37 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v37).trans (result_walk _),
      (h c main_arg0).trans (arg0_kept _), (h c main_arg1).trans (arg1_kept _)⟩)
    (run_seq scopedRefs_eq scopedSems_eq defs main (fun _ => ops) main_eq (fun _ => ops_sub) m ρ)

end Cert.ReferenceIdeal.Walk

end
-- ==== Proof.RefSample.lean ====
/-
  The reference's stages read at a sample, at the extended reals.

  The reference takes the whole batch at once. Read at sample `b` and stream `k + 1`, its stages are: the squared distance
  (anchor − other stream)² summed over the 128 features from the literal 0; the class bit; the or of the seven class bits;
  the maximum over the seven streams of the distance where the bit is set and -∞ elsewhere; alpha; the same-class sum; the
  margin; the negative other-class mask, its sum and its or; the include bit; the loss; and the sample's two contributions,
  to the numerator and to the count. Its result is the quotient of the two sums over the 131072 samples, the count raised to
  at least one: the whole-batch form of the loss.
-/
import proofs.«151627_j22462678958338_1_alg».proof.Proof.RefRead
import proofs.«151627_j22462678958338_1_alg».proof.Proof.SampleLoss
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.Sample

open Cert.ReferenceIdeal Cert.ReferenceIdeal.Gen Cert.ReferenceIdeal.Read Idealize.ShloMosaic Idealize.ShloMosaic.ValueIdx SafeLoss

/-- The two argument arrays, at the extended reals and at 32-bit words. -/
abbrev Emb := (⟨S8x131072x128, .f32⟩ : BufTy).Contents (Elt Ideal)
abbrev Cls := (⟨S8x131072, .i32⟩ : BufTy).Contents (Elt Ideal)

/-! ## The squared distances and the class bits -/

/-- The difference the reference squares: the anchor's feature less the other stream's. -/
theorem v5_at (x0 : Emb) (k : Fin 7) (b : Fin 131072) (j : Fin 128) :
    val_main_v5 (F := Ideal) x0 (ix3 k b j) = x0 (ix3 anchor b j) - x0 (ix3 (up k) b j) := by
  have ea : idx_main_v0 (idx_main_v1 (idx_main_v2 (idx_main_v4 (ix3 k b j)))) = ix3 anchor b j :=
    funext fun a => Fin.ext (by
      have hb := b.isLt; have hj := j.isLt
      match a with
      | ⟨0, _⟩ => rfl
      | ⟨1, _⟩ => show (b.val * 128 + j.val) / 128 % 131072 = b.val; omega
      | ⟨2, _⟩ => show (b.val * 128 + j.val) % 128 = j.val; omega)
  have eo : idx_main_v3 (ix3 k b j) = ix3 (up k) b j :=
    funext fun a => Fin.ext (by match a with | ⟨0, _⟩ => rfl | ⟨1, _⟩ => rfl | ⟨2, _⟩ => rfl)
  rw [val_main_v5_apply, val_main_v4_apply, val_main_v2_apply, val_main_v1_apply, val_main_v0_apply, val_main_v3_apply, ea, eo]
  rfl

/-- Operation 7 at sample `b`, stream `k + 1`: the squared distance to the anchor. -/
theorem v7_at (x0 : Emb) (k : Fin 7) (b : Fin 131072) :
    val_main_v7 (F := Ideal) x0 (ix2 k b) = distR x0 b k := by
  rw [val_main_v7_apply]
  unfold distR
  refine congrArg (F0 + ·) (Finset.sum_congr rfl fun j _ => ?_)
  have e : idx_main_v7 (ix2 k b) j = ix3 k b j :=
    funext fun a => Fin.ext (by match a with | ⟨0, _⟩ => rfl | ⟨1, _⟩ => rfl | ⟨2, _⟩ => rfl)
  rw [e, val_main_v6_apply, v5_at]
  rfl

/-- Operation 13 at sample `b`, stream `k + 1`: the class word equals the anchor's. -/
theorem v13_at (x1 : Cls) (k : Fin 7) (b : Fin 131072) :
    val_main_v13 (F := Ideal) x1 (ix2 k b) = sameBits x1 b k := by
  have ea : idx_main_v9 (idx_main_v10 (idx_main_v11 (idx_main_v12 (ix2 k b)))) = ix2 anchor b :=
    funext fun a => Fin.ext (by
      have hb := b.isLt
      match a with
      | ⟨0, _⟩ => rfl
      | ⟨1, _⟩ => show b.val % 131072 = b.val; omega)
  have eo : idx_main_v8 (ix2 k b) = ix2 (up k) b :=
    funext fun a => Fin.ext (by match a with | ⟨0, _⟩ => rfl | ⟨1, _⟩ => rfl)
  rw [val_main_v13_apply, val_main_v8_apply, val_main_v12_apply, val_main_v11_apply, val_main_v10_apply, val_main_v9_apply, ea, eo]
  rfl

/-! ## The reductions over the seven streams -/

/-- The seven-stream reductions drop the stream axis of a `7 × 131072` array. -/
private theorem red7 : S7x131072.Reduces [0] S131072 := by decide

/-- Over sample `b`, the source index with stream coordinate `k` is `(k, b)`. -/
private theorem lift7 (b : Fin 131072) (k : Fin 7) : red7.lift (ix1 b) k = ix2 k b :=
  funext fun a => Fin.ext (by match a with | ⟨0, _⟩ => rfl | ⟨1, _⟩ => rfl)

/-- Operation 14 at sample `b`: the or of the seven class bits. -/
theorem v14_at (x1 : Cls) (b : Fin 131072) :
    val_main_v14 (F := Ideal) x1 (ix1 b) = anySameR (sameBits x1 b) := by
  unfold val_main_v14 anySameR
  refine (Host.reduce_eq_fold_single IntOp.ori _ _ reducesTo_S7x131072_S131072_d0 red7 h_S_ (ix1 b)).trans ?_
  refine congrArg (fun f => (Finset.univ : Finset (Fin 7)).fold IntOp.ori 0#1 f) ?_
  refine funext fun (k : Fin 7) => ?_
  exact (congrArg (val_main_v13 (F := Ideal) x1) (lift7 b k)).trans (v13_at x1 k b)

/-- Operation 15 at sample `b`, stream `k + 1`: the distance where the class bit is set, -∞ elsewhere. -/
theorem v15_at (x0 : Emb) (x1 : Cls) (k : Fin 7) (b : Fin 131072) :
    val_main_v15 (F := Ideal) x0 x1 (ix2 k b) = Scalar.select (sameBits x1 b k) (distR x0 b k) NI := by
  rw [val_main_v15_apply, v13_at, v7_at, val_main_call0_v1_apply]
  rfl

/-- Operation 16 at sample `b`: the largest same-class distance. -/
theorem v16_at (x0 : Emb) (x1 : Cls) (b : Fin 131072) :
    val_main_v16 (F := Ideal) x0 x1 (ix1 b) = maskedMax (distR x0 b) (sameBits x1 b) := by
  unfold val_main_v16 maskedMax
  refine (Host.reduce_eq_fold_single (FloatOps.maximumf (F := Ideal) (φ := .f32)) _ _ reducesTo_S7x131072_S131072_d0 red7 h_S_ (ix1 b)).trans ?_
  refine congrArg (fun f => (Finset.univ : Finset (Fin 7)).fold max NI f) ?_
  refine funext fun (k : Fin 7) => ?_
  exact (congrArg (val_main_v15 (F := Ideal) x0 x1) (lift7 b k)).trans (v15_at x0 x1 k b)

/-- Operation 17 at sample `b`: α, the largest same-class distance, or 1 when no stream has the anchor's class. -/
theorem v17_at (x0 : Emb) (x1 : Cls) (b : Fin 131072) :
    val_main_v17 (F := Ideal) x0 x1 (ix1 b)
      = Scalar.select (anySameR (sameBits x1 b)) (maskedMax (distR x0 b) (sameBits x1 b)) F1 := by
  rw [val_main_v17_apply, v14_at, v16_at, val_main_call1_v1_apply]
  rfl

/-- Operation 19 at sample `b`: the sum of the same-class distances, from the literal 0. -/
theorem v19_at (x0 : Emb) (x1 : Cls) (b : Fin 131072) :
    val_main_v19 (F := Ideal) x0 x1 (ix1 b) = F0 + sameSum (distR x0 b) (sameBits x1 b) := by
  rw [val_main_v19_apply]
  unfold sameSum
  refine congrArg (F0 + ·) (Finset.sum_congr rfl fun k _ => ?_)
  have e : idx_main_v19 (ix1 b) k = ix2 k b :=
    funext fun a => Fin.ext (by match a with | ⟨0, _⟩ => rfl | ⟨1, _⟩ => rfl)
  rw [e, val_main_v18_apply, v13_at, v7_at, val_main_call2_v1_apply]
  rfl

/-- Operation 22 at sample `b`, stream `k + 1`: the distance less α. -/
theorem v22_at (x0 : Emb) (x1 : Cls) (k : Fin 7) (b : Fin 131072) :
    val_main_v22 (F := Ideal) x0 x1 (ix2 k b) = marginR (distR x0 b) (sameBits x1 b) k := by
  have e : idx_main_v20 (idx_main_v21 (ix2 k b)) = ix1 b :=
    funext fun a => Fin.ext (by match a with | ⟨0, _⟩ => rfl)
  rw [val_main_v22_apply, v7_at, val_main_v21_apply, val_main_v20_apply, e, v17_at]
  rfl

/-- Operation 26 at sample `b`, stream `k + 1`: another class, and a negative margin. -/
theorem v26_at (x0 : Emb) (x1 : Cls) (k : Fin 7) (b : Fin 131072) :
    val_main_v26 (F := Ideal) x0 x1 (ix2 k b) = negR (distR x0 b) (sameBits x1 b) k := by
  rw [val_main_v26_apply, val_main_v23_apply, v13_at, val_main_v25_apply, v22_at, val_main_v24_apply]
  rfl

/-- Operation 28 at sample `b`: the sum of the negative other-class margins, from the literal 0. -/
theorem v28_at (x0 : Emb) (x1 : Cls) (b : Fin 131072) :
    val_main_v28 (F := Ideal) x0 x1 (ix1 b) = negSumR (distR x0 b) (sameBits x1 b) := by
  rw [val_main_v28_apply]
  unfold negSumR
  refine congrArg (F0 + ·) (Finset.sum_congr rfl fun k _ => ?_)
  have e : idx_main_v28 (ix1 b) k = ix2 k b :=
    funext fun a => Fin.ext (by match a with | ⟨0, _⟩ => rfl | ⟨1, _⟩ => rfl)
  rw [e, val_main_v27_apply, v26_at, v22_at, val_main_call3_v1_apply]
  rfl

/-- Operation 30 at sample `b`: the sample is counted. -/
theorem v30_at (x0 : Emb) (x1 : Cls) (b : Fin 131072) :
    val_main_v30 (F := Ideal) x0 x1 (ix1 b) = includeR (distR x0 b) (sameBits x1 b) := by
  have e29 : val_main_v29 (F := Ideal) x0 x1 (ix1 b)
      = (Finset.univ : Finset (Fin 7)).fold IntOp.ori 0#1 (negR (distR x0 b) (sameBits x1 b)) := by
    unfold val_main_v29
    refine (Host.reduce_eq_fold_single IntOp.ori _ _ reducesTo_S7x131072_S131072_d0 red7 h_S_ (ix1 b)).trans ?_
    refine congrArg (fun f => (Finset.univ : Finset (Fin 7)).fold IntOp.ori 0#1 f) ?_
    refine funext fun (k : Fin 7) => ?_
    exact (congrArg (val_main_v26 (F := Ideal) x0 x1) (lift7 b k)).trans (v26_at x0 x1 k b)
  rw [val_main_v30_apply, v14_at, e29]
  rfl

/-- Operation 35 at sample `b`: the sample's contribution to the numerator. -/
theorem v35_at (x0 : Emb) (x1 : Cls) (b : Fin 131072) :
    val_main_v35 (F := Ideal) x0 x1 (ix1 b) = termR (distR x0 b) (sameBits x1 b) := by
  rw [val_main_v35_apply, v30_at, val_main_v31_apply, v19_at, v28_at, val_main_call4_v1_apply]
  rfl

/-- Operation 32 at sample `b`: the sample's contribution to the denominator. -/
theorem v32_at (x0 : Emb) (x1 : Cls) (b : Fin 131072) :
    val_main_v32 (F := Ideal) x0 x1 (ix1 b) = countR (distR x0 b) (sameBits x1 b) := by
  rw [val_main_v32_apply, v30_at]
  rfl

/-! ## The two sums over the batch, and the quotient -/

/-- A sum over the indices of a rank-1 shape is the sum over its one coordinate. -/
private theorem sum_idx1 {n : Nat} (f : (⟨1, ![n]⟩ : Shape).Idx → EReal) :
    ∑ j : (⟨1, ![n]⟩ : Shape).Idx, f j = ∑ b : Fin n, f (ix1 b) :=
  Fintype.sum_equiv ⟨fun j => j 0, ix1, fun j => (eq_ix1 j).symm, fun _ => rfl⟩ _ _ fun j => congrArg f (eq_ix1 j)

/-- The reference's result, read at its one index, is the whole-batch form of the loss. -/
theorem total_eq (x0 : (⟨S8x131072x128, .f32⟩ : BufTy).Contents (Elt Ideal)) (x1 : (⟨S8x131072, .i32⟩ : BufTy).Contents (Elt Ideal)) :
    val_main_v37 (F := Ideal) x0 x1 = fun _ => totalR x0 x1 := by
  funext i
  have hnum : val_main_v36 (F := Ideal) x0 x1 i = F0 + ∑ b : Fin 131072, termR (distR x0 b) (sameBits x1 b) := by
    rw [val_main_v36_apply, sum_idx1]
    exact congrArg (F0 + ·) (Finset.sum_congr rfl fun b _ => v35_at x0 x1 b)
  have hcnt : val_main_v33 (F := Ideal) x0 x1 i = F0 + ∑ b : Fin 131072, countR (distR x0 b) (sameBits x1 b) := by
    rw [val_main_v33_apply, sum_idx1]
    exact congrArg (F0 + ·) (Finset.sum_congr rfl fun b _ => v32_at x0 x1 b)
  rw [val_main_v37_apply, val_main_v34_apply, hnum, hcnt]
  rfl

end Cert.ReferenceIdeal.Sample

end
-- ==== Proof.LossForms.lean ====
/-
  The tiled form and the whole-batch form of the loss are the same extended real when every embedding is a real number.

  The two forms differ in four places. The squared distance subtracts in the opposite order: on reals (a - b)² = (b - a)².
  "Some stream has the anchor's class" is read off the masked maximum being above -∞ in one form and is the or of the
  class bits in the other: a real distance is above -∞, so the maximum of the distances at the set bits and -∞ elsewhere
  is above -∞ exactly when a bit is set. "Some other-class margin is negative" is a positive sum of zero-one reals in one
  form and an or of bits in the other: a sum of non-negative terms is positive exactly when a term is. And the batch is
  summed tile by tile in one form and at once in the other: sample 2048 t + r of the batch is sample r of tile t, which
  matches the 64 × 2048 pairs with the 131072 samples one to one, and a finite sum in a commutative monoid may be
  regrouped along such a matching. The literal 0 in front of a sum adds nothing.
-/
import proofs.«151627_j22462678958338_1_alg».proof.Proof.SampleLoss
import Mathlib.Data.EReal.Operations
import Mathlib.Algebra.BigOperators.Fin
import Mathlib.Algebra.Order.BigOperators.Group.Finset
import Mathlib.Data.Finset.Fold
import Mathlib.Tactic.Ring

noncomputable section

open scoped BigOperators

namespace SafeLoss

open Idealize.ShloMosaic Idealize.ShloMosaic.ValueIdx

/-! ## The three literals -/

private theorem NI_eq : NI = ⊥ := by simp [NI, Ideal.ofBits, Ideal.ieee]
private theorem F1_eq : F1 = 1 := IdealRules.sign_bit.ideal_onePat .f32
private theorem F0_eq : F0 = 0 := Ideal.ofBits_zero_f32

/-! ## One-bit words -/

private theorem bit_ext {a b : BitVec 1} (h : a = 1#1 ↔ b = 1#1) : a = b := by
  revert a b; decide

private theorem select_ite {α : Type} (c : BitVec 1) (a b : α) : Scalar.select c a b = if c = 1#1 then a else b := rfl

private theorem cmp_ogt_one (x y : EReal) : Ideal.cmp .ogt x y = 1#1 ↔ y < x := by
  by_cases h : y < x <;> simp [Ideal.cmp, h]

private theorem ori_one {a b : BitVec 1} : IntOp.ori a b = 1#1 ↔ a = 1#1 ∨ b = 1#1 := by
  revert a b; decide

private theorem xori_one (b : BitVec 1) : IntOp.xori b 1#1 = ~~~b := by
  revert b; decide

private theorem fold_ori_one {ι : Type} [DecidableEq ι] (t : Finset ι) (f : ι → BitVec 1) :
    t.fold IntOp.ori 0#1 f = 1#1 ↔ ∃ k ∈ t, f k = 1#1 := by
  induction t using Finset.induction_on with
  | empty => simp
  | insert a t ha ih => rw [Finset.fold_insert ha, ori_one, ih]; simp

/-- The zero-one real of a bit read as a signed 32-bit word. -/
private theorem toInt_bit (b : BitVec 1) : (((b.setWidth 32).toInt : ℝ) : EReal) = if b = 1#1 then 1 else 0 := by
  rcases BitVec.eq_zero_or_eq_one b with rfl | rfl <;> simp

private theorem toNat_bit (b : BitVec 1) : (((b.toNat : ℝ)) : EReal) = if b = 1#1 then 1 else 0 := by
  rcases BitVec.eq_zero_or_eq_one b with rfl | rfl <;> simp

/-! ## Sums and products of real entries -/

private theorem sum_ne_bot {ι : Type} (t : Finset ι) (f : ι → EReal) (h : ∀ i ∈ t, f i ≠ ⊥) : ∑ i ∈ t, f i ≠ ⊥ := by
  classical
  induction t using Finset.induction_on with
  | empty => simp
  | insert a t ha ih =>
    rw [Finset.sum_insert ha, EReal.add_ne_bot_iff]
    exact ⟨h a (Finset.mem_insert_self _ _), ih fun i hi => h i (Finset.mem_insert_of_mem hi)⟩

/-- On reals the square of a difference does not see the order of subtraction. -/
private theorem sq_swap {a b : EReal} (ha : a ≠ ⊥ ∧ a ≠ ⊤) (hb : b ≠ ⊥ ∧ b ≠ ⊤) : (a - b) * (a - b) = (b - a) * (b - a) := by
  lift a to ℝ using ⟨ha.2, ha.1⟩
  lift b to ℝ using ⟨hb.2, hb.1⟩
  rw [← EReal.coe_sub, ← EReal.coe_sub, ← EReal.coe_mul, ← EReal.coe_mul]
  exact congrArg _ (by ring)

private theorem sq_ne_bot {a b : EReal} (ha : a ≠ ⊥ ∧ a ≠ ⊤) (hb : b ≠ ⊥ ∧ b ≠ ⊤) : (a - b) * (a - b) ≠ ⊥ := by
  lift a to ℝ using ⟨ha.2, ha.1⟩
  lift b to ℝ using ⟨hb.2, hb.1⟩
  rw [← EReal.coe_sub, ← EReal.coe_mul]
  exact EReal.coe_ne_bot _

/-! ## The distances -/

private theorem distR_eq_distK {n : Nat} (x : (⟨3, ![8, n, 128]⟩ : Shape).Idx → EReal) (hx : ∀ i, x i ≠ ⊥ ∧ x i ≠ ⊤)
    (r : Fin n) : distR x r = distK x r := by
  funext k
  unfold distR distK
  rw [F0_eq, zero_add]
  exact Finset.sum_congr rfl fun j _ => sq_swap (hx _) (hx _)

private theorem distK_ne_bot {n : Nat} (x : (⟨3, ![8, n, 128]⟩ : Shape).Idx → EReal) (hx : ∀ i, x i ≠ ⊥ ∧ x i ≠ ⊤)
    (r : Fin n) (k : Fin 7) : distK x r k ≠ ⊥ :=
  sum_ne_bot _ _ fun j _ => sq_ne_bot (hx _) (hx _)

/-! ## One sample: the two forms agree when no distance is -∞ -/

section Sample
variable (d : Fin 7 → EReal) (s : Fin 7 → BitVec 1)

private theorem anySameR_one : anySameR s = 1#1 ↔ ∃ k, s k = 1#1 := by
  unfold anySameR; rw [fold_ori_one]; simp

/-- The masked maximum is above -∞ exactly when some class bit is set. -/
private theorem maskedMax_gt (hd : ∀ k, d k ≠ ⊥) : NI < maskedMax d s ↔ ∃ k, s k = 1#1 := by
  unfold maskedMax
  rw [Finset.lt_fold_max]
  simp only [lt_self_iff_false, false_or, Finset.mem_univ, true_and]
  refine exists_congr fun k => ?_
  rw [select_ite, NI_eq]
  by_cases h : s k = 1#1
  · simp [h, bot_lt_iff_ne_bot, hd k]
  · simp [h]

private theorem anySameK_eq (hd : ∀ k, d k ≠ ⊥) : anySameK d s = anySameR s :=
  bit_ext (by rw [anySameK, cmp_ogt_one, maskedMax_gt d s hd, anySameR_one])

private theorem marginK_eq (hd : ∀ k, d k ≠ ⊥) (k : Fin 7) : marginK d s k = marginR d s k := by
  unfold marginK marginR; rw [anySameK_eq d s hd]

private theorem negK_eq (hd : ∀ k, d k ≠ ⊥) (k : Fin 7) : negK d s k = negR d s k := by
  unfold negK negR; rw [xori_one, marginK_eq d s hd]

private theorem negSumR_eq (hd : ∀ k, d k ≠ ⊥) : negSumR d s = negSumK d s := by
  unfold negSumR negSumK
  rw [F0_eq, zero_add]
  exact Finset.sum_congr rfl fun k _ => by rw [negK_eq d s hd, marginK_eq d s hd]

/-- The sum of the zero-one reals of seven bits is positive exactly when some bit is set. -/
private theorem negCountK_pos : F0 < negCountK d s ↔ ∃ k, negK d s k = 1#1 := by
  unfold negCountK
  rw [F0_eq, Finset.sum_pos_iff_of_nonneg (fun k _ => by rw [toInt_bit]; split <;> simp)]
  simp only [Finset.mem_univ, true_and]
  refine exists_congr fun k => ?_
  rw [toInt_bit]
  by_cases h : negK d s k = 1#1 <;> simp [h]

private theorem includeK_eq (hd : ∀ k, d k ≠ ⊥) : includeK d s = includeR d s := by
  unfold includeK includeR
  rw [anySameK_eq d s hd]
  refine congrArg _ (bit_ext ?_)
  rw [cmp_ogt_one, negCountK_pos, fold_ori_one]
  simp [negK_eq d s hd]

private theorem termK_eq (hd : ∀ k, d k ≠ ⊥) : termK d s = termR d s := by
  unfold termK termR
  rw [includeK_eq d s hd, negSumR_eq d s hd, F0_eq, zero_add]

private theorem countK_eq (hd : ∀ k, d k ≠ ⊥) : countK d s = countR d s := by
  unfold countK countR
  rw [toInt_bit, toNat_bit, includeK_eq d s hd]

end Sample

/-! ## The batch as 64 tiles of 2048 samples -/

/-- A sample's number is its tile's number times 2048 plus its place in the tile. -/
private def globEquiv : Fin 64 × Fin 2048 ≃ Fin 131072 where
  toFun p := glob p.1 p.2
  invFun b := (⟨b.val / 2048, by have := b.isLt; omega⟩, ⟨b.val % 2048, by omega⟩)
  left_inv := by
    rintro ⟨t, r⟩
    have := t.isLt
    have := r.isLt
    refine Prod.ext (Fin.ext ?_) (Fin.ext ?_)
    · show (t.val * 2048 + r.val) / 2048 = t.val
      omega
    · show (t.val * 2048 + r.val) % 2048 = r.val
      omega
  right_inv := by
    intro b
    refine Fin.ext ?_
    show b.val / 2048 * 2048 + b.val % 2048 = b.val
    omega

private theorem sum_glob {M : Type} [AddCommMonoid M] (f : Fin 131072 → M) :
    ∑ t : Fin 64, ∑ r : Fin 2048, f (glob t r) = ∑ b : Fin 131072, f b := by
  rw [← Equiv.sum_comp globEquiv f, Fintype.sum_prod_type]
  rfl

/-- On finite embeddings the tiled form and the whole-batch form of the result are the same extended real. -/
theorem totalK_eq_totalR (E : (⟨3, ![8, 131072, 128]⟩ : Shape).Idx → EReal) (T : (⟨2, ![8, 131072]⟩ : Shape).Idx → BitVec 32)
    (hfin : ∀ i, E i ≠ ⊥ ∧ E i ≠ ⊤) : totalK E T = totalR E T := by
  have hd : ∀ b k, distK E b k ≠ ⊥ := distK_ne_bot E hfin
  have hR : ∀ b, distR E b = distK E b := distR_eq_distK E hfin
  have hnum : ∑ t : Fin 64, ∑ r : Fin 2048, termK (distK E (glob t r)) (sameBits T (glob t r))
      = ∑ b : Fin 131072, termR (distR E b) (sameBits T b) :=
    (sum_glob fun b => termK (distK E b) (sameBits T b)).trans
      (Finset.sum_congr rfl fun b _ => by rw [hR b, termK_eq _ _ (hd b)])
  have hcnt : ∑ t : Fin 64, ∑ r : Fin 2048, countK (distK E (glob t r)) (sameBits T (glob t r))
      = ∑ b : Fin 131072, countR (distR E b) (sameBits T b) :=
    (sum_glob fun b => countK (distK E b) (sameBits T b)).trans
      (Finset.sum_congr rfl fun b _ => by rw [hR b, countK_eq _ _ (hd b)])
  unfold totalK totalR
  rw [hnum, hcnt]

end SafeLoss

end
-- ==== Proof.Finite.lean ====
/-
  The precondition read back: every embedding is a real number.

  The precondition says that the conjunction, over all entries of the embeddings array, of "|x| < +∞" is true. So every
  entry's absolute value — the larger of the entry and its negative — is below +∞: the entry is neither +∞ nor -∞.
-/
import proofs.«151627_j22462678958338_1_alg».proof.Pre_finite_inputs
import proofs.«151627_j22462678958338_1_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs Cert.Pre_finite_inputs.Gen

instance : Subsingleton Cert.Pre_finite_inputs.S_.Idx := ⟨fun a b => funext fun d => d.elim0⟩

/-- The f32 word of +∞ denotes the top extended real. -/
theorem posInf : Ideal.ofBits .f32 0x7F800000#32 = ⊤ := by simp [Ideal.ofBits, Ideal.ieee]

/-- An extended real whose absolute value is below +∞ is finite. -/
theorem finite_of_abs_lt_top {x : EReal} (h : max x (-x) < ⊤) : x ≠ ⊥ ∧ x ≠ ⊤ := by
  constructor
  · rintro rfl
    simp at h
  · rintro rfl
    simp at h

/-- Under the precondition every entry of the embeddings is finite. -/
theorem entry_finite (x : FVec Ideal S8x131072x128 .f32) (t : IVec S8x131072 32)
    (h : Cert.Pre_finite_inputs.fn (F := Ideal) x t = fun _ => 1#1) (i : S8x131072x128.Idx) : x i ≠ ⊥ ∧ x i ≠ ⊤ := by
  have h0 := congrFun h ValueIdx.ix0
  dsimp only [Cert.Pre_finite_inputs.fn] at h0
  have hi := Host.reduce_andi_all _ _ _ _ _ h0 i
  have hlt : max (x i) (-(x i)) < ⊤ := by
    have hc : BitVec.ofBool (decide (max (x i) (-(x i)) < Ideal.ofBits .f32 0x7F800000#32)) = 1#1 := hi
    rw [posInf] at hc
    by_contra hn
    rw [decide_eq_false hn] at hc
    exact absurd hc (by decide)
  exact finite_of_abs_lt_top hlt

end Cert.Finite

end
-- ==== Proof.lean ====
/-
  The certificate of the batch loss kernel against its jnp reference, over the extended reals.

  The kernel walks the batch of 131072 samples in 64 tiles of 2048. For each sample it takes the squared distances of the
  seven non-anchor streams to the anchor stream, sums the same-class distances, subtracts the negative margins of the
  other-class streams against the largest same-class distance (or 1), and counts the sample if it has a same-class stream
  or a negative margin; two scalars carried from tile to tile accumulate the counted losses and the count, and the last
  tile writes their quotient, the count raised to at least 1. The reference computes the same over the whole batch at once.

  The three frame claims: the two kernel programs by their generated frames; the reference by its run with the result
  dropped. The idealization rewrote nothing, so its claim is trivial. The value claim: at the ideal instance the kernel's
  result buffer ends at the tiled form of the loss of the argument arrays (the frame's accumulation read back, tile by tile),
  the reference's at the whole-batch form (its stages read at an index), and on finite embeddings — which the precondition
  gives — the two forms are the same extended real.
-/
import proofs.«151627_j22462678958338_1_alg».proof.Defs
import proofs.«151627_j22462678958338_1_alg».proof.Proof.Gen.Kernel
import proofs.«151627_j22462678958338_1_alg».proof.Proof.Gen.Kernel.Skeleton
import proofs.«151627_j22462678958338_1_alg».proof.Proof.Gen.Kernel.Launch
import proofs.«151627_j22462678958338_1_alg».proof.Proof.Gen.Kernel.Points
import proofs.«151627_j22462678958338_1_alg».proof.Proof.Gen.Kernel.Frame
import proofs.«151627_j22462678958338_1_alg».proof.Proof.Gen.KernelIdeal
import proofs.«151627_j22462678958338_1_alg».proof.Proof.Gen.KernelIdeal.Skeleton
import proofs.«151627_j22462678958338_1_alg».proof.Proof.Gen.KernelIdeal.Launch
import proofs.«151627_j22462678958338_1_alg».proof.Proof.Gen.KernelIdeal.Points
import proofs.«151627_j22462678958338_1_alg».proof.Proof.Gen.KernelIdeal.Frame
import proofs.«151627_j22462678958338_1_alg».proof.Proof.Gen.ReferenceIdeal
import proofs.«151627_j22462678958338_1_alg».proof.Proof.Gen.Pre_finite_inputs
import proofs.«151627_j22462678958338_1_alg».proof.Proof.KernelTotal
import proofs.«151627_j22462678958338_1_alg».proof.Proof.RefRun
import proofs.«151627_j22462678958338_1_alg».proof.Proof.RefSample
import proofs.«151627_j22462678958338_1_alg».proof.Proof.LossForms
import proofs.«151627_j22462678958338_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Walk.run (F := Ideal) m ρ)

/-- At the ideal instance the kernel's result ends at the tiled form of the loss and the reference's at the whole-batch
    form, of argument arrays that agree and are finite: one extended real. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Walk.run (F := Ideal) m' ρ')
  rw [(hagree c).1, (hagree c).2, Cert.ReferenceIdeal.Sample.total_eq]
  show _ = Cert.KernelIdeal.KValue.result m c
  rw [Cert.KernelIdeal.KValue.result_eq]
  funext _
  exact (SafeLoss.totalK_eq_totalR _ _ (fun i => Cert.Finite.entry_finite _ _ (hpre c) i)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
